-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x384 : Shape := ⟨2, ![1024, 384]⟩
abbrev S768x768 : Shape := ⟨2, ![768, 768]⟩
abbrev S768 : Shape := ⟨1, ![768]⟩
abbrev S768x147456 : Shape := ⟨2, ![768, 147456]⟩
abbrev S_ : Shape := ⟨0, ![]⟩

class Facts : Prop where
  bcast_S_S1024x384 : S_.BroadcastsInDim S1024x384 (![] : Fin 0 → Fin S1024x384.rank)
  reducesTo_S1024x384_S_d0_1 : S1024x384.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x147456 : S_.BroadcastsInDim S768x147456 (![] : Fin 0 → Fin S768x147456.rank)
  reducesTo_S768x147456_S_d0_1 : S768x147456.ReducesTo [0, 1] S_

variable [Facts]

def fn_part1 {F : FTy → Type} [FloatOps F] (main_arg4 : FVec F S768x147456 .f32) (main_arg5 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x147456 .f32 := Host.absf main_arg4
  let main_cst_6 : FVec F S_ .f32 := constant S_ .f32 0x7F800000#32
  let main_v20 : FVec F S768x147456 .f32 := broadcastInDim S768x147456 ![] bcast_S_S768x147456 main_cst_6
  let main_v21 : IVec S768x147456 1 := cmpf .olt main_v19 main_v20
  let main_c_7 : IVec S_ 1 := constantI S_ 1 1#1
  let main_v22 : IVec S_ 1 := (fun x v => Host.reduce IntOp.andi x v reducesTo_S768x147456_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S1024x384 .f32) (main_arg1 : FVec F S1024x384 .f32) (main_arg2 : FVec F S768x768 .f32) (main_arg3 : FVec F S768 .f32) (main_arg4 : FVec F S768x147456 .f32) (main_arg5 : FVec F S768 .f32) : IVec S_ 1 :=
  let main_v0 : FVec F S1024x384 .f32 := Host.absf main_arg0
  let main_cst : FVec F S_ .f32 := constant S_ .f32 0x7F800000#32
  let main_v1 : FVec F S1024x384 .f32 := broadcastInDim S1024x384 ![] bcast_S_S1024x384 main_cst
  let main_v2 : IVec S1024x384 1 := cmpf .olt main_v0 main_v1
  let main_c : IVec S_ 1 := constantI S_ 1 1#1
  let main_v3 : IVec S_ 1 := (fun x v => Host.reduce IntOp.andi x v reducesTo_S1024x384_S_d0_1 h_S_) main_v2 main_c
  let main_v4 : FVec F S1024x384 .f32 := Host.absf main_arg1
  let main_cst_0 : FVec F S_ .f32 := constant S_ .f32 0x7F800000#32
  let main_v5 : FVec F S1024x384 .f32 := broadcastInDim S1024x384 ![] bcast_S_S1024x384 main_cst_0
  let main_v6 : IVec S1024x384 1 := cmpf .olt main_v4 main_v5
  let main_c_1 : IVec S_ 1 := constantI S_ 1 1#1
  let main_v7 : IVec S_ 1 := (fun x v => Host.reduce IntOp.andi x v reducesTo_S1024x384_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S1024x384 : Shape := ⟨2, ![1024, 384]⟩
abbrev S768x768 : Shape := ⟨2, ![768, 768]⟩
abbrev S768 : Shape := ⟨1, ![768]⟩
abbrev S768x147456 : Shape := ⟨2, ![768, 147456]⟩
abbrev S1024x768 : Shape := ⟨2, ![1024, 768]⟩
abbrev S1x768 : Shape := ⟨2, ![1, 768]⟩
abbrev S512x768 : Shape := ⟨2, ![512, 768]⟩
abbrev S768x384x384 : Shape := ⟨3, ![768, 384, 384]⟩
abbrev S512x384 : Shape := ⟨2, ![512, 384]⟩
abbrev S768x16x384 : Shape := ⟨3, ![768, 16, 384]⟩
abbrev S512x16 : Shape := ⟨2, ![512, 16]⟩
abbrev S512x1 : Shape := ⟨2, ![512, 1]⟩
abbrev S768x1x384 : Shape := ⟨3, ![768, 1, 384]⟩
abbrev S768x384 : Shape := ⟨2, ![768, 384]⟩
abbrev S384x768 : Shape := ⟨2, ![384, 768]⟩
abbrev S1024x1536 : Shape := ⟨2, ![1024, 1536]⟩

abbrev nBuf : Space → Nat
  | .hbm => 14
  | .vmem => 15
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S768x768, .f32⟩
  | .hbm, ⟨3, _⟩ => ⟨S768, .f32⟩
  | .hbm, ⟨4, _⟩ => ⟨S768x147456, .f32⟩
  | .hbm, ⟨5, _⟩ => ⟨S768, .f32⟩
  | .hbm, ⟨6, _⟩ => ⟨S1024x768, .f32⟩
  | .hbm, ⟨7, _⟩ => ⟨S768x768, .f32⟩
  | .hbm, ⟨8, _⟩ => ⟨S1x768, .f32⟩
  | .hbm, ⟨9, _⟩ => ⟨S1024x768, .f32⟩
  | .hbm, ⟨10, _⟩ => ⟨S768x384x384, .f32⟩
  | .hbm, ⟨11, _⟩ => ⟨S1x768, .f32⟩
  | .hbm, ⟨12, _⟩ => ⟨S1024x768, .f32⟩
  | .hbm, ⟨13, _⟩ => ⟨S1024x1536, .f32⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S1x768, .f32⟩
  | .local _ .vmem, ⟨4, _⟩ => ⟨S512x768, .f32⟩
  | .local _ .vmem, ⟨5, _⟩ => ⟨S512x768, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S768x16x384, .f32⟩
  | .local _ .vmem, ⟨11, _⟩ => ⟨S768x16x384, .f32⟩
  | .local _ .vmem, ⟨12, _⟩ => ⟨S1x768, .f32⟩
  | .local _ .vmem, ⟨13, _⟩ => ⟨S512x768, .f32⟩
  | .local _ .vmem, ⟨14, _⟩ => ⟨S512x768, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 24], ![false, false]⟩

def k1_mult1 (i : grid1.Coords) : BitVec 32 :=
  let arg1 : BitVec 32 := BitVec.ofNat 32 (i 1).val
  let c16_i32 : BitVec 32 := 16#32
  let v5 : BitVec 32 := Scalar.muli arg1 c16_i32
  v5
def k1_off1 (i : grid1.Coords) : Fin 2 → Nat :=
  let c0_2 : Index := 0#32
  let arg1 : BitVec 32 := BitVec.ofNat 32 (i 1).val
  let c16_i32 : BitVec 32 := 16#32
  let v5 : BitVec 32 := Scalar.muli arg1 c16_i32
  let v6 : BitVec 32 := v5
  let v7 : Index := Scalar.indexCast v6
  ![0, v7.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S768x16x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  concatenates_S1024x384_S1024x384_S1024x768_d1 : Shape.Concatenates [S1024x384, S1024x384] S1024x768 1
  transposes_S768x768_S768x768_1_0 : S768x768.Transposes [1, 0] S768x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S768x147456_S768x384x384 : S768x147456.ShapeCasts S768x384x384
  inb_S512x384_S512x384_0_0 : ∀ a, (![0, 0] : Fin 2 → Nat) a + S512x384.size a ≤ S512x384.size a
  h_S512x384 : 0 < S512x384.numel
  h_S512x16 : 0 < S512x16.numel
  slices_S512x16_o0_0_S512x1 : S512x16.Slices ![0, 0] S512x1
  inb_S768x16x384_S768x1x384_0_0_0 : ∀ a, (![0, 0, 0] : Fin 3 → Nat) a + S768x1x384.size a ≤ S768x16x384.size a
  h_S768x1x384 : 0 < S768x1x384.numel
  shapeCasts_S768x1x384_S768x384 : S768x1x384.ShapeCasts S768x384
  transposes_S768x384_p1_0_S384x768 : S768x384.Transposes [1, 0] S384x768
  broadcasts_S512x1_S512x768 : S512x1.Broadcasts S512x768
  slices_S512x16_o0_1_S512x1 : S512x16.Slices ![0, 1] S512x1
  inb_S768x16x384_S768x1x384_0_1_0 : ∀ a, (![0, 1, 0] : Fin 3 → Nat) a + S768x1x384.size a ≤ S768x16x384.size a
  slices_S512x16_o0_2_S512x1 : S512x16.Slices ![0, 2] S512x1
  inb_S768x16x384_S768x1x384_0_2_0 : ∀ a, (![0, 2, 0] : Fin 3 → Nat) a + S768x1x384.size a ≤ S768x16x384.size a
  slices_S512x16_o0_3_S512x1 : S512x16.Slices ![0, 3] S512x1
  inb_S768x16x384_S768x1x384_0_3_0 : ∀ a, (![0, 3, 0] : Fin 3 → Nat) a + S768x1x384.size a ≤ S768x16x384.size a
  slices_S512x16_o0_4_S512x1 : S512x16.Slices ![0, 4] S512x1
  inb_S768x16x384_S768x1x384_0_4_0 : ∀ a, (![0, 4, 0] : Fin 3 → Nat) a + S768x1x384.size a ≤ S768x16x384.size a
  slices_S512x16_o0_5_S512x1 : S512x16.Slices ![0, 5] S512x1
  inb_S768x16x384_S768x1x384_0_5_0 : ∀ a, (![0, 5, 0] : Fin 3 → Nat) a + S768x1x384.size a ≤ S768x16x384.size a
  slices_S512x16_o0_6_S512x1 : S512x16.Slices ![0, 6] S512x1
  inb_S768x16x384_S768x1x384_0_6_0 : ∀ a, (![0, 6, 0] : Fin 3 → Nat) a + S768x1x384.size a ≤ S768x16x384.size a
  slices_S512x16_o0_7_S512x1 : S512x16.Slices ![0, 7] S512x1
  inb_S768x16x384_S768x1x384_0_7_0 : ∀ a, (![0, 7, 0] : Fin 3 → Nat) a + S768x1x384.size a ≤ S768x16x384.size a
  slices_S512x16_o0_8_S512x1 : S512x16.Slices ![0, 8] S512x1
  inb_S768x16x384_S768x1x384_0_8_0 : ∀ a, (![0, 8, 0] : Fin 3 → Nat) a + S768x1x384.size a ≤ S768x16x384.size a
  slices_S512x16_o0_9_S512x1 : S512x16.Slices ![0, 9] S512x1
  inb_S768x16x384_S768x1x384_0_9_0 : ∀ a, (![0, 9, 0] : Fin 3 → Nat) a + S768x1x384.size a ≤ S768x16x384.size a
  slices_S512x16_o0_10_S512x1 : S512x16.Slices ![0, 10] S512x1
  inb_S768x16x384_S768x1x384_0_10_0 : ∀ a, (![0, 10, 0] : Fin 3 → Nat) a + S768x1x384.size a ≤ S768x16x384.size a
  slices_S512x16_o0_11_S512x1 : S512x16.Slices ![0, 11] S512x1
  inb_S768x16x384_S768x1x384_0_11_0 : ∀ a, (![0, 11, 0] : Fin 3 → Nat) a + S768x1x384.size a ≤ S768x16x384.size a
  slices_S512x16_o0_12_S512x1 : S512x16.Slices ![0, 12] S512x1
  inb_S768x16x384_S768x1x384_0_12_0 : ∀ a, (![0, 12, 0] : Fin 3 → Nat) a + S768x1x384.size a ≤ S768x16x384.size a
  slices_S512x16_o0_13_S512x1 : S512x16.Slices ![0, 13] S512x1
  inb_S768x16x384_S768x1x384_0_13_0 : ∀ a, (![0, 13, 0] : Fin 3 → Nat) a + S768x1x384.size a ≤ S768x16x384.size a
  slices_S512x16_o0_14_S512x1 : S512x16.Slices ![0, 14] S512x1
  inb_S768x16x384_S768x1x384_0_14_0 : ∀ a, (![0, 14, 0] : Fin 3 → Nat) a + S768x1x384.size a ≤ S768x16x384.size a
  slices_S512x16_o0_15_S512x1 : S512x16.Slices ![0, 15] S512x1
  inb_S768x16x384_S768x1x384_0_15_0 : ∀ a, (![0, 15, 0] : Fin 3 → Nat) a + S768x1x384.size a ≤ S768x16x384.size a
  concatenates_S1024x768_S1024x768_S1024x1536_d1 : Shape.Concatenates [S1024x768, S1024x768] S1024x1536 1
  dot_S512x768_S768x768_S512x768_1_0_0_1_n_n_wf : DotDims.WF S512x768 S768x768 S512x768 [1] [0] [0] [1] [] []
  dot_S512x384_S384x768_S512x768_1_0_0_1_n_n_wf : DotDims.WF S512x384 S384x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S1024x768.size a
  hwx0_0 : ∀ i : grid0.Coords, EltTy.bits .f32 = 32 ∨ (Rect.block (s := S1024x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S1024x768.size a
  hwx0_3 : ∀ i : grid0.Coords, EltTy.bits .f32 = 32 ∨ (Rect.block (s := S1024x768) S512x768.size (cc0_transform_3 i) (hinb0_3 i)).WholeWords (EltTy.packing .f32)
  hrank1 : 0 < grid1.rank
  k1_mult1_dvd : ∀ i : grid1.Coords, 16 ∣ (k1_mult1 i).toNat
  k1_off1_inb : ∀ i : grid1.Coords, ∀ a, (k1_off1 i) a + S512x16.size a ≤ S512x384.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x384.size a ≤ S1024x384.size a
  hwx1_0 : ∀ i : grid1.Coords, EltTy.bits .f32 = 32 ∨ (Rect.block (s := S1024x384) S512x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x384.size a ≤ S1024x384.size a
  hwx1_1 : ∀ i : grid1.Coords, EltTy.bits .f32 = 32 ∨ (Rect.block (s := S1024x384) S512x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S768x16x384.size a ≤ S768x384x384.size a
  hwx1_2 : ∀ i : grid1.Coords, EltTy.bits .f32 = 32 ∨ (Rect.block (s := S768x384x384) S768x16x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x768.size a ≤ S1024x768.size a
  hwx1_4 : ∀ i : grid1.Coords, EltTy.bits .f32 = 32 ∨ (Rect.block (s := S1024x768) S512x768.size (cc1_transform_4 i) (hinb1_4 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x384_S384x768_S512x768_1_0_0_1_n_n : DotDims S512x384 S384x768 S512x768 where
  lhsContracting := [1]
  rhsContracting := [0]
  lhsNonContracting := [0]
  rhsNonContracting := [1]
  lhsBatch := []
  rhsBatch := []
  wf := dot_S512x384_S384x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S768x16x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x384 : Shape := ⟨2, ![1024, 384]⟩
abbrev S768x768 : Shape := ⟨2, ![768, 768]⟩
abbrev S768 : Shape := ⟨1, ![768]⟩
abbrev S768x147456 : Shape := ⟨2, ![768, 147456]⟩
abbrev S1024x768 : Shape := ⟨2, ![1024, 768]⟩
abbrev S1x768 : Shape := ⟨2, ![1, 768]⟩
abbrev S1024x384x1 : Shape := ⟨3, ![1024, 384, 1]⟩
abbrev S1024x1x384 : Shape := ⟨3, ![1024, 1, 384]⟩
abbrev S1024x384x384 : Shape := ⟨3, ![1024, 384, 384]⟩
abbrev S1024x147456 : Shape := ⟨2, ![1024, 147456]⟩
abbrev S147456x768 : Shape := ⟨2, ![147456, 768]⟩
abbrev S1024x1536 : Shape := ⟨2, ![1024, 1536]⟩

abbrev nBuf : Space → Nat
  | .hbm => 24
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S768x768, .f32⟩
  | .hbm, ⟨3, _⟩ => ⟨S768, .f32⟩
  | .hbm, ⟨4, _⟩ => ⟨S768x147456, .f32⟩
  | .hbm, ⟨5, _⟩ => ⟨S768, .f32⟩
  | .hbm, ⟨6, _⟩ => ⟨S1024x768, .f32⟩
  | .hbm, ⟨7, _⟩ => ⟨S768x768, .f32⟩
  | .hbm, ⟨8, _⟩ => ⟨S1024x768, .f32⟩
  | .hbm, ⟨9, _⟩ => ⟨S1x768, .f32⟩
  | .hbm, ⟨10, _⟩ => ⟨S1024x768, .f32⟩
  | .hbm, ⟨11, _⟩ => ⟨S1024x768, .f32⟩
  | .hbm, ⟨12, _⟩ => ⟨S1024x384x1, .f32⟩
  | .hbm, ⟨13, _⟩ => ⟨S1024x1x384, .f32⟩
  | .hbm, ⟨14, _⟩ => ⟨S1024x384x384, .f32⟩
  | .hbm, ⟨15, _⟩ => ⟨S1024x384x384, .f32⟩
  | .hbm, ⟨16, _⟩ => ⟨S1024x384x384, .f32⟩
  | .hbm, ⟨17, _⟩ => ⟨S1024x147456, .f32⟩
  | .hbm, ⟨18, _⟩ => ⟨S147456x768, .f32⟩
  | .hbm, ⟨19, _⟩ => ⟨S1024x768, .f32⟩
  | .hbm, ⟨20, _⟩ => ⟨S1x768, .f32⟩
  | .hbm, ⟨21, _⟩ => ⟨S1024x768, .f32⟩
  | .hbm, ⟨22, _⟩ => ⟨S1024x768, .f32⟩
  | .hbm, ⟨23, _⟩ => ⟨S1024x1536, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  concatenates_S1024x384_S1024x384_S1024x768_d1 : Shape.Concatenates [S1024x384, S1024x384] S1024x768 1
  transposes_S768x768_S768x768_1_0 : S768x768.Transposes [1, 0] S768x768
  bcast_S768_S1x768_1 : S768.BroadcastsInDim S1x768 (![1] : Fin 1 → Fin S1x768.rank)
  bcast_S1x768_S1024x768_0_1 : S1x768.BroadcastsInDim S1024x768 (![0, 1] : Fin 2 → Fin S1024x768.rank)
  bcast_S1024x384_S1024x384x1_0_1 : S1024x384.BroadcastsInDim S1024x384x1 (![0, 1] : Fin 2 → Fin S1024x384x1.rank)
  bcast_S1024x384_S1024x1x384_0_2 : S1024x384.BroadcastsInDim S1024x1x384 (![0, 2] : Fin 2 → Fin S1024x1x384.rank)
  bcast_S1024x384x1_S1024x384x384_0_1_2 : S1024x384x1.BroadcastsInDim S1024x384x384 (![0, 1, 2] : Fin 3 → Fin S1024x384x384.rank)
  bcast_S1024x1x384_S1024x384x384_0_1_2 : S1024x1x384.BroadcastsInDim S1024x384x384 (![0, 1, 2] : Fin 3 → Fin S1024x384x384.rank)
  shapeCasts_S1024x384x384_S1024x147456 : S1024x384x384.ShapeCasts S1024x147456
  transposes_S768x147456_S147456x768_1_0 : S768x147456.Transposes [1, 0] S147456x768
  concatenates_S1024x768_S1024x768_S1024x1536_d1 : Shape.Concatenates [S1024x768, S1024x768] S1024x1536 1
  dot_S1024x768_S768x768_S1024x768_1_0_0_1_n_n_wf : DotDims.WF S1024x768 S768x768 S1024x768 [1] [0] [0] [1] [] []
  dot_S1024x147456_S147456x768_S1024x768_1_0_0_1_n_n_wf : DotDims.WF S1024x147456 S147456x768 S1024x768 [1] [0] [0] [1] [] []

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x147456_S147456x768_S1024x768_1_0_0_1_n_n : DotDims S1024x147456 S147456x768 S1024x768 where
  lhsContracting := [1]
  rhsContracting := [0]
  lhsNonContracting := [0]
  rhsNonContracting := [1]
  lhsBatch := []
  rhsBatch := []
  wf := dot_S1024x147456_S147456x768_S1024x768_1_0_0_1_n_n_wf

class Facts : Prop extends Facts₀ where

variable [Facts]
-- ==== Proof.Spec.lean ====
/-
  The two halves of the result as functions of the argument arrays, over the extended reals.

  Deep half: row p, column q is  (sum over k < 768 of X[p,k] * WT[k,q]) + bias[q],  X the two feature
  arrays side by side and WT the transposed weight.

  Wide half, as the kernel accumulates it: the feature index i < 384 of the first array is cut into 24
  tiles of 16, and row b, column n is
      (sum over tiles ki, over ii < 16, of hs[b,16 ki + ii] * (sum over j < 384 of ht[b,j] * W3[n,16 ki + ii,j])) + bias[n].
  Wide half, as the reference states it: the outer product hs[b,i] * ht[b,j] flattened row-major to
  k = 384 i + j and contracted with W[n,k]:
      (sum over k < 147456 of (hs[b,k / 384] * ht[b,k % 384]) * W[n,k]) + bias[n].
-/
import Idealize.ShloMosaic.PureOps.Ideal
import Idealize.ShloMosaic.Lib.ValueIdx

noncomputable section

open scoped BigOperators

namespace Cert.DeepWide

open Idealize.ShloMosaic Idealize.ShloMosaic.ValueIdx

/-- An array of extended reals of rank 1, 2, 3 with literal extents. -/
abbrev A1 (n0 : Nat) : Type := (⟨1, ![n0]⟩ : Shape).Idx → EReal
abbrev A2 (n0 n1 : Nat) : Type := (⟨2, ![n0, n1]⟩ : Shape).Idx → EReal
abbrev A3 (n0 n1 n2 : Nat) : Type := (⟨3, ![n0, n1, n2]⟩ : Shape).Idx → EReal

/-- The feature index 16 ki + ii of tile ki, position ii. -/
def tileIdx (ki : Fin 24) (ii : Fin 16) : Fin 384 := ⟨16 * ki.val + ii.val, by omega⟩
/-- The flattened index 384 i + j of the pair (i, j). -/
def flatIdx (i j : Fin 384) : Fin 147456 := ⟨i.val * 384 + j.val, by omega⟩
/-- The pair a flattened index comes from. -/
def hiIdx (k : Fin 147456) : Fin 384 := ⟨k.val / 384, by omega⟩
def loIdx (k : Fin 147456) : Fin 384 := ⟨k.val % 384, by omega⟩

theorem tileIdx_val (ki : Fin 24) (ii : Fin 16) : (tileIdx ki ii).val = 16 * ki.val + ii.val := rfl
theorem flatIdx_val (i j : Fin 384) : (flatIdx i j).val = i.val * 384 + j.val := rfl
theorem hiIdx_val (k : Fin 147456) : (hiIdx k).val = k.val / 384 := rfl
theorem loIdx_val (k : Fin 147456) : (loIdx k).val = k.val % 384 := rfl

/-- The deep half at row p, column q. -/
def deepAt (X : A2 1024 768) (WT : A2 768 768) (bias : Fin 768 → EReal) (p : Fin 1024) (q : Fin 768) : EReal :=
  (∑ k : Fin 768, X (ix2 p k) * WT (ix2 k q)) + bias q

/-- The wide half at row b, column n, tile by tile (the kernel's arrangement), over the weight as a
    rank-3 array. -/
def wideTiledAt (hs ht : A2 1024 384) (W3 : A3 768 384 384) (bias : Fin 768 → EReal) (b : Fin 1024) (n : Fin 768) : EReal :=
  (∑ ki : Fin 24, ∑ ii : Fin 16,
      hs (ix2 b (tileIdx ki ii)) * ∑ j : Fin 384, ht (ix2 b j) * W3 (ix3 n (tileIdx ki ii) j)) + bias n

/-- The wide half at row b, column n, as one contraction over the flattened outer product (the
    reference's arrangement), over the weight as a rank-2 array. -/
def wideFlatAt (hs ht : A2 1024 384) (W : A2 768 147456) (bias : Fin 768 → EReal) (b : Fin 1024) (n : Fin 768) : EReal :=
  (∑ k : Fin 147456, (hs (ix2 b (hiIdx k)) * ht (ix2 b (loIdx k))) * W (ix2 n k)) + bias n

/-- The deep half as a whole array, its bias a one-row array. -/
def deepArr (X : A2 1024 768) (WT : A2 768 768) (B2 : A2 1 768) : A2 1024 768 :=
  fun i => deepAt X WT (fun q => B2 (ix2 0 q)) (i 0) (i 1)

/-- The wide half, tile by tile, as a whole array, its bias a one-row array. -/
def wideArr (hs ht : A2 1024 384) (W3 : A3 768 384 384) (B2 : A2 1 768) : A2 1024 768 :=
  fun i => wideTiledAt hs ht W3 (fun q => B2 (ix2 0 q)) (i 0) (i 1)

theorem deepArr_ix2 (X : A2 1024 768) (WT : A2 768 768) (B2 : A2 1 768) (p : Fin 1024) (q : Fin 768) :
    deepArr X WT B2 (ix2 p q) = deepAt X WT (fun q => B2 (ix2 0 q)) p q := rfl

theorem wideArr_ix2 (hs ht : A2 1024 384) (W3 : A3 768 384 384) (B2 : A2 1 768) (b : Fin 1024) (n : Fin 768) :
    wideArr hs ht W3 B2 (ix2 b n) = wideTiledAt hs ht W3 (fun q => B2 (ix2 0 q)) b n := rfl

/-- Every entry of an array is a real number. -/
def AllReal {ι : Type} (x : ι → EReal) : Prop := ∀ i, ∃ r : ℝ, x i = (r : EReal)

end Cert.DeepWide

end
-- ==== Proof.Boundaries.lean ====
/-
  The contents of the buffers at the boundaries of the run, read back to the argument arrays:
  what each kernel is entered with, and the result array as the two kernels' outputs side by side.
-/
import proofs.«148149_j79920751444429_1_alg».proof.Proof.Gen.KernelIdeal.Frame
import Idealize.ShloMosaic.Lib.StableHlo.Run

set_option maxRecDepth 16384

noncomputable section

namespace Cert.KernelIdeal.GenRun

open Idealize.ShloMosaic Idealize.ShloMosaic.TcCoe Idealize.ShloMosaic.Tactic
open Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The deep kernel is entered with the two feature arrays side by side, -/
theorem V1_main_v0 (c : Dev nD) :
    V1 m ρ c main_v0 = concatenate S1024x768 1 [⟨S1024x384, m ((c : Thread nD τ).loc main_arg0)⟩, ⟨S1024x384, m ((c : Thread nD τ).loc main_arg1)⟩] concatenates_S1024x384_S1024x384_S1024x768_d1 := by
  show StableHlo.after hostOps0 (W0 m ρ c) (Proc.devRef .tc main_v0) = _
  after_results

/-- the transposed deep weight, -/
theorem V1_main_v1 (c : Dev nD) :
    V1 m ρ c main_v1 = transpose S768x768 [1, 0] (m ((c : Thread nD τ).loc main_arg2)) transposes_S768x768_S768x768_1_0 := by
  show StableHlo.after hostOps0 (W0 m ρ c) (Proc.devRef .tc main_v1) = _
  after_results

/-- and the deep bias as a one-row array. -/
theorem V1_main_v2 (c : Dev nD) :
    V1 m ρ c main_v2 = shapeCast S1x768 (m ((c : Thread nD τ).loc main_arg3)) shapeCasts_S768_S1x768 := by
  show StableHlo.after hostOps0 (W0 m ρ c) (Proc.devRef .tc main_v2) = _
  after_results
  rfl

/-- The deep kernel's output array is not touched between the two kernels. -/
theorem W3_main_v3 (c : Dev nD) : W3 m ρ c (Proc.devRef .tc main_v3) = (dat0 (V1 m ρ) c).arrAt 3 cfg0.N :=
  (show W3 m ρ c (Proc.devRef .tc main_v3) = W2 m ρ c (Proc.devRef .tc main_v3) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 3)

/-- The wide kernel is entered with the two feature arrays as launched, -/
theorem V3_main_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem V3_main_arg1 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

/-- the wide weight and bias as launched, under the two reshapes: -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- the weight as a rank-3 array, -/
theorem V3_main_v4 (c : Dev nD) :
    V3 m ρ c main_v4 = shapeCast S768x384x384 (m ((c : Thread nD τ).loc main_arg4)) shapeCasts_S768x147456_S768x384x384 := by
  show StableHlo.after hostOps1 (W2 m ρ c) (Proc.devRef .tc main_v4) = _
  after_results
  rw [W2_main_arg4]
  rfl

/-- the bias as a one-row array. -/
theorem V3_main_v5 (c : Dev nD) :
    V3 m ρ c main_v5 = shapeCast S1x768 (m ((c : Thread nD τ).loc main_arg5)) shapeCasts_S768_S1x768 := by
  show StableHlo.after hostOps1 (W2 m ρ c) (Proc.devRef .tc main_v5) = _
  after_results
  rw [W2_main_arg5]
  rfl

/-- The result array: the two kernels' output arrays side by side. -/
theorem W5_main_v7 (c : Dev nD) :
    W5 m ρ c (Proc.devRef .tc main_v7)
      = concatenate S1024x1536 1 [⟨S1024x768, (dat0 (V1 m ρ) c).arrAt 3 cfg0.N⟩, ⟨S1024x768, (dat1 (V3 m ρ) c).arrAt 4 cfg1.N⟩]
          concatenates_S1024x768_S1024x768_S1024x1536_d1 := by
  have h3 : W4 m ρ c (Proc.devRef .tc main_v3) = (dat0 (V1 m ρ) c).arrAt 3 cfg0.N :=
    (W4_of_ne m ρ c main_v3 (by decide)).trans (W3_main_v3 m ρ c)
  have h6 : W4 m ρ c (Proc.devRef .tc main_v6) = (dat1 (V3 m ρ) c).arrAt 4 cfg1.N := W4_arr m ρ c 4
  show StableHlo.after hostOps2 (W4 m ρ c) (Proc.devRef .tc main_v7) = _
  after_results
  rw [h3, h6]

end Cert.KernelIdeal.GenRun

end
-- ==== Proof.Region0Value.lean ====
/-
  What the deep kernel leaves in its output array: every row of the joined features times the transposed
  weight, plus the bias row.

  The kernel runs over two grid points. Point t takes rows 512 t .. 512 t + 511 of the joined features, the
  whole transposed weight and the whole bias row, and stores into rows 512 t .. 512 t + 511 of the output the
  block product plus the bias row spread over the rows. Both format changes in front of the product are the
  identity on extended reals and the accumulator is zero, so entry (r, q) of the stored block is
      (sum over k < 768 of X[512 t + r, k] * WT[k, q]) + bias[0, q],
  which is entry (512 t + r, q) of one function of the three arrays. The two blocks of 512 rows cover the 1024
  rows, so the array ends holding that function.
-/
import proofs.«148149_j79920751444429_1_alg».proof.Proof.Gen.KernelIdeal.Frame
import proofs.«148149_j79920751444429_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Deep

open Idealize.ShloMosaic Idealize.ShloMosaic.TcCoe Idealize.ShloMosaic.ValueIdx Idealize.SL.Sem Cert.KernelIdeal Cert.KernelIdeal.Gen Cert.DeepWide
open Idealize.ShloMosaic.Pipeline (Dat)

/-! ## The stored block at an entry -/

/-- In the block product the left operand is read at the output's row … -/
theorem lhs_axis0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
/-- … and at the summed index as its column; -/
theorem lhs_axis1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q
/-- the right operand is read at the summed index as its row … -/
theorem rhs_axis0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q
/-- … and at the output's column. -/
theorem rhs_axis1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- The block product into a zero accumulator, at row r and column q: the sum over the 768 shared indices of
    the left operand's row r times the right operand's column q. -/
theorem product_at (a : FVec Ideal S512x768 .bf16) (b : FVec Ideal S768x768 .bf16) (r : Fin 512) (q : Fin 768) :
    (matmul dot_S512x768_S768x768_S512x768_1_0_0_1_n_n none a b (constant S512x768 .f32 0x00000000#32) : FVec Ideal S512x768 .f32) (ix2 r q)
      = ∑ k : Fin 768, a (ix2 r k) * b (ix2 k q) := by
  simp only [matmul]
  rw [Ideal.matmul_constant_zero_apply, ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 r q) ((contrEquiv1 dot_S512x768_S768x768_S512x768_1_0_0_1_n_n 768 rfl rfl).symm k) = ix2 r k := funext fun a => Fin.ext (by
    match a with
    | ⟨0, _⟩ => exact lhs_axis0 _ _
    | ⟨1, _⟩ => exact (lhs_axis1 _ _).trans hk)
  have er : dot_S512x768_S768x768_S512x768_1_0_0_1_n_n.rhsIdx (ix2 r q) ((contrEquiv1 dot_S512x768_S768x768_S512x768_1_0_0_1_n_n 768 rfl rfl).symm k) = ix2 k q := funext fun a => Fin.ext (by
    match a with
    | ⟨0, _⟩ => exact (rhs_axis0 _ _).trans hk
    | ⟨1, _⟩ => exact rhs_axis1 _ _)
  rw [el, er]

/-- The one-row bias spread over the 512 rows reads, in every row, its entry of that column. -/
theorem bias_at (x2 : Vec Ideal S1x768 .f32) (r : Fin 512) (q : Fin 768) :
    (broadcastTo S512x768 x2 broadcasts_S1x768_S512x768 : FVec Ideal S512x768 .f32) (ix2 r q) = x2 (ix2 0 q) := by
  refine broadcastTo_apply x2 broadcasts_S1x768_S512x768 (ix2 r q) (ix2 0 q) (fun a => ?_)
  match a with
  | ⟨0, _⟩ => show 0 = if (1 : Nat) = 1 then 0 else _; rw [if_pos rfl]
  | ⟨1, _⟩ => show q.val = if (768 : Nat) = 1 then 0 else q.val; rw [if_neg (by decide)]

/-- What the body stores, at row r and column q of its block, from the three blocks it loads: the same-shape
    casts and the two narrowings change nothing, the product runs into zero, the bias row is added. -/
theorem payload_at (x0 : Vec Ideal S512x768 .f32) (x1 : Vec Ideal S768x768 .f32) (x2 : Vec Ideal S1x768 .f32)
    (r : Fin 512) (q : Fin 768) :
    k0_pay1 (F := Ideal) x0 x1 x2 (ix2 r q) = (∑ k : Fin 768, x0 (ix2 r k) * x1 (ix2 k q)) + x2 (ix2 0 q) := by
  unfold k0_pay1
  rw [shapeCast_self, shapeCast_self, shapeCast_self]
  refine (addf_apply _ _ (ix2 r q)).trans ?_
  rw [product_at, bias_at]
  rfl

/-! ## The blocks the two grid points read and write -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at a grid point t: the features' window and the output's window are at block row t,
    the weight's and the bias's windows stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point t is rows 512 t .. 512 t + 511 of the joined features. -/
theorem features_block_at (c : Dev nD) (t : Fin cfg0.N) (y : S512x768.Idx) (i : S1024x768.Idx)
    (h0 : (i 0).val = 512 * t.val + (y 0).val) (h1 : (i 1).val = (y 1).val) :
    (iblk0 (F := Ideal) V c 0 t : Vec Ideal S512x768 .f32) y = (V c main_v0 : Vec Ideal S1024x768 .f32) i := by
  obtain ⟨e0, e1, -⟩ := block_indices t
  unfold iblk0
  rw [View.read_apply]
  show V c main_v0 _ = V c main_v0 _
  congr 1
  funext a
  apply Fin.ext
  match a with
  | ⟨0, _⟩ => show win0_0.index t (0 : Fin 2) * 512 + 1 * (y 0).val = (i 0).val; omega
  | ⟨1, _⟩ => show win0_0.index t (1 : Fin 2) * 768 + 1 * (y 1).val = (i 1).val; omega

/-- The weight's block at every point is the whole transposed weight. -/
theorem weight_block (c : Dev nD) (t : Fin cfg0.N) :
    (iblk0 (F := Ideal) V c 1 t : Vec Ideal S768x768 .f32) = (V c main_v1 : Vec Ideal S768x768 .f32) := by
  obtain ⟨-, -, e0, e1, -⟩ := block_indices t
  funext y
  unfold iblk0
  rw [View.read_apply]
  show V c main_v1 _ = V c main_v1 y
  congr 1
  funext a
  apply Fin.ext
  match a with
  | ⟨0, _⟩ => show win0_1.index t (0 : Fin 2) * 768 + 1 * (y 0).val = (y 0).val; omega
  | ⟨1, _⟩ => show win0_1.index t (1 : Fin 2) * 768 + 1 * (y 1).val = (y 1).val; omega

/-- The bias's block at every point is the whole bias row. -/
theorem bias_block (c : Dev nD) (t : Fin cfg0.N) :
    (iblk0 (F := Ideal) V c 2 t : Vec Ideal S1x768 .f32) = (V c main_v2 : Vec Ideal S1x768 .f32) := by
  obtain ⟨-, -, -, -, e0, e1, -⟩ := block_indices t
  funext y
  unfold iblk0
  rw [View.read_apply]
  show V c main_v2 _ = V c main_v2 y
  congr 1
  funext a
  apply Fin.ext
  match a with
  | ⟨0, _⟩ => show win0_2.index t (0 : Fin 2) * 1 + 1 * (y 0).val = (y 0).val; omega
  | ⟨1, _⟩ => show win0_2.index t (1 : Fin 2) * 768 + 1 * (y 1).val = (y 1).val; omega

/-! ## From the blocks to the array -/

/-- What point t leaves in the output's staging buffer, at row r and column q: entry (512 t + r, q) of the deep
    half of the three entry arrays. -/
theorem stored_at (c : Dev nD) (t : Fin cfg0.N) (r : Fin 512) (q : Fin 768) (p : Fin 1024) (hp : p.val = 512 * t.val + r.val) :
    out0_3 (F := Ideal) (iblk0 V c 0 t) (iblk0 V c 1 t) (iblk0 V c 2 t) (ix2 r q)
      = deepArr (V c main_v0) (V c main_v1) (V c main_v2) (ix2 p q) := by
  unfold out0_3
  rw [View.canon_unit_zero zero_offsets]
  simp only [View.ld_unit_zero (S := S512x768) zero_offsets, View.ld_unit_zero (S := S768x768) zero_offsets, View.ld_unit_zero (S := S1x768) zero_offsets]
  rw [weight_block V c t, bias_block V c t]
  refine (payload_at _ _ _ r q).trans ?_
  rw [deepArr_ix2]
  unfold deepAt
  refine congrArg (· + (V c main_v2 : Vec Ideal S1x768 .f32) (ix2 0 q)) (Finset.sum_congr rfl fun k _ => ?_)
  rw [features_block_at V c t (ix2 r k) (ix2 p k) hp rfl]

/-- WHAT POINT t WRITES BACK is its block of the deep half of the three entry arrays. -/
theorem flushed_block (c : Dev nD) (t : Fin cfg0.N) :
    (dat0 (F := Ideal) V c).flushed 3 t
      = ((cfg0.win 3).blk t).view.read (Elt Ideal) (deepArr (V c main_v0) (V c main_v1) (V c main_v2)) := by
  show (cfg0.win 3).cut (grid0.coords t) ((dat0 (F := Ideal) V c).after 3 t) = _
  rw [after0_3]
  obtain ⟨-, -, -, -, -, -, e0, e1⟩ := block_indices t
  have hN : t.val < 2 := by have := t.isLt; have hn : cfg0.N = 2 := N_0; omega
  funext j
  have hj0 : (j 0).val < 512 := (j 0).isLt
  have hj1 : (j 1).val < 768 := (j 1).isLt
  have ej : (cfg0.win 3).xinj (grid0.coords t) j = ix2 (⟨(j 0).val, hj0⟩ : Fin 512) (⟨(j 1).val, hj1⟩ : Fin 768) :=
    funext fun a => match a with | ⟨0, _⟩ => rfl | ⟨1, _⟩ => rfl
  have ei : ((cfg0.win 3).blk t).view.emb j = ix2 (⟨512 * t.val + (j 0).val, by omega⟩ : Fin 1024) (⟨(j 1).val, hj1⟩ : Fin 768) := by
    funext a
    apply Fin.ext
    match a with
    | ⟨0, _⟩ => show win0_3.index t (0 : Fin 2) * 512 + 1 * (j 0).val = 512 * t.val + (j 0).val; omega
    | ⟨1, _⟩ => show win0_3.index t (1 : Fin 2) * 768 + 1 * (j 1).val = (j 1).val; omega
  show out0_3 (F := Ideal) (iblk0 V c 0 t) (iblk0 V c 1 t) (iblk0 V c 2 t) ((cfg0.win 3).xinj (grid0.coords t) j)
    = deepArr (V c main_v0) (V c main_v1) (V c main_v2) (((cfg0.win 3).blk t).view.emb j)
  rw [ej, ei]
  exact stored_at V c t _ _ _ rfl

/-- An index of the output array is in point t's block iff each coordinate is in the block's range on its axis. -/
theorem mem_block (t : Fin cfg0.N) (i : S1024x768.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v3).slice (win0_3.rect t)).set ↔ _
  rw [View.set_slice_whole, Rect.mem_set_unit]
  exact Iff.rfl

/-- Row p of the output array lies in the block of point p / 512, which writes back. -/
theorem covered (i : S1024x768.Idx) :
    ∃ t : Fin cfg0.N, (cfg0.win 3).flush t = true ∧ i ∈ ((cfg0.win 3).blk t).view.set := by
  have hi0 : (i 0).val < 1024 := (i 0).isLt
  have hi1 : (i 1).val < 768 := (i 1).isLt
  have hn : cfg0.N = 2 := N_0
  let t : Fin cfg0.N := ⟨(i 0).val / 512, by omega⟩
  obtain ⟨-, -, -, -, -, -, e0, e1⟩ := block_indices t
  have ht : t.val = (i 0).val / 512 := rfl
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 768 ≤ (i 1).val ∧ (i 1).val < win0_3.index t (1 : Fin 2) * 768 + 768; omega

/-- After the deep kernel's two grid points its output array holds the deep half of the result, as a
    function of the three arrays the kernel is entered with. -/
theorem region0_value (V : (c : Dev nD) → (b : Ref sig .tc) → Buf (Elt Ideal) ((c : Thread nD τ).loc b)) (c : Dev nD) :
    (dat0 (F := Ideal) V c).arrAt 3 cfg0.N = deepArr (V c main_v0) (V c main_v1) (V c main_v2) :=
  (dat0 (F := Ideal) V c).arrAt_eq_of_cover 3 (deepArr (V c main_v0) (V c main_v1) (V c main_v2))
    (fun t _ => flushed_block V c t) covered

end Cert.KernelIdeal.Deep

end
-- ==== Proof.WideBody.lean ====
/-
  One grid point of the wide kernel as a function of what its loads read.

  At a point the body reads the whole block of the second feature array (512 x 384), a 512 x 16 column
  slice of the block of the first feature array (the 16 features of the point's tile), the sixteen
  768 x 1 x 384 rows of the weight block, and the running contents of the output block; it leaves
      prev + sum over ii < 16 of slice[:, ii] * (second block . row ii of the weight block, transposed).
  `bodyAcc` is that value as the printed arithmetic, `slice16` and `rows16` are the loads.
-/
import proofs.«148149_j79920751444429_1_alg».proof.Proof.Gen.KernelIdeal.Skeleton
import Idealize.ShloMosaic.Lib.Pipeline.FrameBody

noncomputable section

namespace Cert.KernelIdeal.Wide

open Idealize.ShloMosaic Cert.KernelIdeal Cert.KernelIdeal.Gen

variable {F : FTy → Type} [FloatOps F]

/-- The body's value at one point: the four printed partial sums nested as the body chains them, over the
    loaded second block `v3`, the loaded column slice `v8`, the sixteen loaded weight rows `w` and the
    running output `prev`. -/
def bodyAcc (v3 : Vec F S512x384 .f32) (v8 : Vec F S512x16 .f32) (w : Fin 16 → Vec F S768x1x384 .f32)
    (prev : Vec F S512x768 .f32) : FVec F S512x768 .f32 :=
  k1_pay11 (k1_pay3 v3) v8
    (k1_pay9 (k1_pay3 v3) v8
      (k1_pay6 (k1_pay3 v3) v8 (k1_pay4 v3 v8 (w 0) (w 1) (w 2)) (k1_pay5 v8) (w 3) (w 4) (w 5) (w 6))
      (k1_pay7 v8) (k1_pay8 (w 7)) (constant S512x768 .f32 0x00000000#32) (w 8) (w 9) (w 10) (w 11))
    (k1_pay10 v8) (w 12) (w 13) (w 14) (w 15) prev

/-- The 512 x 16 column slice of the first feature block the body loads at grid point `i`: columns
    16 (i 1) .. 16 (i 1) + 15. -/
def slice16 (i : grid1.Coords) (x0 : Vec F S512x384 .f32) : Vec F S512x16 .f32 :=
  View.ld x0 (Rect.unit (s := S512x384) (k1_off1 i) S512x16.size (k1_off1_inb i))

/-- The sixteen 768 x 1 x 384 rows of the weight block the body loads. -/
def rows16 (x2 : Vec F S768x16x384 .f32) : Fin 16 → Vec F S768x1x384 .f32
  | ⟨0, _⟩ => View.ld x2 (Rect.unit (s := S768x16x384) ![0, 0, 0] S768x1x384.size inb_S768x16x384_S768x1x384_0_0_0)
  | ⟨1, _⟩ => View.ld x2 (Rect.unit (s := S768x16x384) ![0, 1, 0] S768x1x384.size inb_S768x16x384_S768x1x384_0_1_0)
  | ⟨2, _⟩ => View.ld x2 (Rect.unit (s := S768x16x384) ![0, 2, 0] S768x1x384.size inb_S768x16x384_S768x1x384_0_2_0)
  | ⟨3, _⟩ => View.ld x2 (Rect.unit (s := S768x16x384) ![0, 3, 0] S768x1x384.size inb_S768x16x384_S768x1x384_0_3_0)
  | ⟨4, _⟩ => View.ld x2 (Rect.unit (s := S768x16x384) ![0, 4, 0] S768x1x384.size inb_S768x16x384_S768x1x384_0_4_0)
  | ⟨5, _⟩ => View.ld x2 (Rect.unit (s := S768x16x384) ![0, 5, 0] S768x1x384.size inb_S768x16x384_S768x1x384_0_5_0)
  | ⟨6, _⟩ => View.ld x2 (Rect.unit (s := S768x16x384) ![0, 6, 0] S768x1x384.size inb_S768x16x384_S768x1x384_0_6_0)
  | ⟨7, _⟩ => View.ld x2 (Rect.unit (s := S768x16x384) ![0, 7, 0] S768x1x384.size inb_S768x16x384_S768x1x384_0_7_0)
  | ⟨8, _⟩ => View.ld x2 (Rect.unit (s := S768x16x384) ![0, 8, 0] S768x1x384.size inb_S768x16x384_S768x1x384_0_8_0)
  | ⟨9, _⟩ => View.ld x2 (Rect.unit (s := S768x16x384) ![0, 9, 0] S768x1x384.size inb_S768x16x384_S768x1x384_0_9_0)
  | ⟨10, _⟩ => View.ld x2 (Rect.unit (s := S768x16x384) ![0, 10, 0] S768x1x384.size inb_S768x16x384_S768x1x384_0_10_0)
  | ⟨11, _⟩ => View.ld x2 (Rect.unit (s := S768x16x384) ![0, 11, 0] S768x1x384.size inb_S768x16x384_S768x1x384_0_11_0)
  | ⟨12, _⟩ => View.ld x2 (Rect.unit (s := S768x16x384) ![0, 12, 0] S768x1x384.size inb_S768x16x384_S768x1x384_0_12_0)
  | ⟨13, _⟩ => View.ld x2 (Rect.unit (s := S768x16x384) ![0, 13, 0] S768x1x384.size inb_S768x16x384_S768x1x384_0_13_0)
  | ⟨14, _⟩ => View.ld x2 (Rect.unit (s := S768x16x384) ![0, 14, 0] S768x1x384.size inb_S768x16x384_S768x1x384_0_14_0)
  | ⟨15, _⟩ => View.ld x2 (Rect.unit (s := S768x16x384) ![0, 15, 0] S768x1x384.size inb_S768x16x384_S768x1x384_0_15_0)
  | ⟨_ + 16, h⟩ => absurd h (Nat.not_lt.2 (Nat.le_add_left _ _))

end Cert.KernelIdeal.Wide

end
-- ==== Proof.WidePieces.lean ====
/-
  What each control case of the wide kernel leaves in its output block, in terms of `bodyAcc`.

  Every store and every whole-block load of the body goes through the rectangle at zero offsets of the
  block's own sizes, so a store through it leaves its payload whatever was stored before, and a load
  through it of what one such store left reads that payload. The three cases differ only in what sits
  around the point's sum: a zero block stored first and read back (first tile), the running contents
  (middle tiles), the bias row added to the sum read back (last tile).
-/
import proofs.«148149_j79920751444429_1_alg».proof.Proof.Gen.KernelIdeal.Frame
import proofs.«148149_j79920751444429_1_alg».proof.Proof.WideBody
import Idealize.ShloMosaic.Lib.Pipeline.Value
import Idealize.ShloMosaic.Lib.ValueIdx

set_option maxRecDepth 16384

noncomputable section

namespace Cert.KernelIdeal.Wide

open Idealize.ShloMosaic Idealize.ShloMosaic.ValueIdx Cert.KernelIdeal Cert.KernelIdeal.Gen

variable {F : FTy → Type} [FloatOps F]

/-- The offsets of a whole rank-2 block are zero on both axes. -/
theorem zeroOff2 : (![0, 0] : Fin 2 → Nat) = fun _ => 0 := by
  funext a; match a with | ⟨0, _⟩ => rfl | ⟨1, _⟩ => rfl

/-- First point of a batch half (tile 0): the block is zeroed, then the point's sum is added. -/
theorem out1_A_4_eq (c : Dev nD) (i : grid1.Coords) (arg2 : Memref sig .tc .vmem S512x384 .f32) (harg2 : arg2.IsWhole) (arg3 : Memref sig .tc .vmem S512x384 .f32) (harg3 : arg3.IsWhole) (arg4 : Memref sig .tc .vmem S768x16x384 .f32) (harg4 : arg4.IsWhole) (arg5 : Memref sig .tc .vmem S1x768 .f32) (harg5 : arg5.IsWhole) (arg6 : Memref sig .tc .vmem S512x768 .f32) (harg6 : arg6.IsWhole) (hc0 : cond1_0 i) (hc1 : ¬cond1_1 i)
    (x0 : Vec F S512x384 .f32) (x1 : Vec F S512x384 .f32) (x2 : Vec F S768x16x384 .f32) (x3 : Vec F S1x768 .f32) :
    out1_A_4 c i arg2 harg2 arg3 harg3 arg4 harg4 arg5 harg5 arg6 harg6 hc0 hc1 x0 x1 x2 x3 = bodyAcc x1 (slice16 i x0) (rows16 x2) (k1_pay2 (F := F)) := by
  unfold out1_A_4
  rw [View.read_writes_eq_canon _ _ _ (cover1_A_4 c i arg2 harg2 arg3 harg3 arg4 harg4 arg5 harg5 arg6 harg6 hc0 hc1 x0 x1 x2 x3)]
  unfold kernelRun1_A
  dsimp only
  sl_unfold_words
  -- two stores of the whole block: the later one (the sum) stands, and its running contents are the zeros read back
  rw [View.canon_cons_unit_zero (S := S512x768) zeroOff2, View.readCov_unit_zero (S := S512x768) _ zeroOff2]
  simp only [View.readAt_eq_ld, harg2.read_unread, harg3.read_unread, harg4.read_unread,
    View.ld_unit_zero (S := S512x384) zeroOff2]
  rfl

/-- A middle point: the point's sum is added to what the point before left. -/
theorem out1_B_4_eq (c : Dev nD) (i : grid1.Coords) (arg2 : Memref sig .tc .vmem S512x384 .f32) (harg2 : arg2.IsWhole) (arg3 : Memref sig .tc .vmem S512x384 .f32) (harg3 : arg3.IsWhole) (arg4 : Memref sig .tc .vmem S768x16x384 .f32) (harg4 : arg4.IsWhole) (arg5 : Memref sig .tc .vmem S1x768 .f32) (harg5 : arg5.IsWhole) (arg6 : Memref sig .tc .vmem S512x768 .f32) (harg6 : arg6.IsWhole) (hc0 : ¬cond1_0 i) (hc1 : ¬cond1_1 i)
    (x0 : Vec F S512x384 .f32) (x1 : Vec F S512x384 .f32) (x2 : Vec F S768x16x384 .f32) (x3 : Vec F S1x768 .f32) (xo4 : Vec F S512x768 .f32) :
    out1_B_4 c i arg2 harg2 arg3 harg3 arg4 harg4 arg5 harg5 arg6 harg6 hc0 hc1 x0 x1 x2 x3 xo4 = bodyAcc x1 (slice16 i x0) (rows16 x2) xo4 := by
  unfold out1_B_4
  rw [View.read_writes_eq_canon _ _ _ (cover1_B_4 c i arg2 harg2 arg3 harg3 arg4 harg4 arg5 harg5 arg6 harg6 hc0 hc1 x0 x1 x2 x3 xo4)]
  unfold kernelRun1_B
  dsimp only
  sl_unfold_words
  -- one store of the whole block, over the running contents loaded whole
  rw [View.canon_unit_zero zeroOff2]
  simp only [View.readAt_eq_ld, harg2.read_unread, harg3.read_unread, harg4.read_unread, harg6.read_unread,
    View.ld_unit_zero (S := S512x384) zeroOff2, View.ld_unit_zero (S := S512x768) zeroOff2]
  rfl

/-- Last point of a batch half (tile 23): the point's sum is added, then the bias row. -/
theorem out1_C_4_eq (c : Dev nD) (i : grid1.Coords) (arg2 : Memref sig .tc .vmem S512x384 .f32) (harg2 : arg2.IsWhole) (arg3 : Memref sig .tc .vmem S512x384 .f32) (harg3 : arg3.IsWhole) (arg4 : Memref sig .tc .vmem S768x16x384 .f32) (harg4 : arg4.IsWhole) (arg5 : Memref sig .tc .vmem S1x768 .f32) (harg5 : arg5.IsWhole) (arg6 : Memref sig .tc .vmem S512x768 .f32) (harg6 : arg6.IsWhole) (hc0 : ¬cond1_0 i) (hc1 : cond1_1 i)
    (x0 : Vec F S512x384 .f32) (x1 : Vec F S512x384 .f32) (x2 : Vec F S768x16x384 .f32) (x3 : Vec F S1x768 .f32) (xo4 : Vec F S512x768 .f32) :
    out1_C_4 c i arg2 harg2 arg3 harg3 arg4 harg4 arg5 harg5 arg6 harg6 hc0 hc1 x0 x1 x2 x3 xo4 = k1_pay1 (bodyAcc x1 (slice16 i x0) (rows16 x2) xo4) x3 := by
  unfold out1_C_4
  rw [View.read_writes_eq_canon _ _ _ (cover1_C_4 c i arg2 harg2 arg3 harg3 arg4 harg4 arg5 harg5 arg6 harg6 hc0 hc1 x0 x1 x2 x3 xo4)]
  unfold kernelRun1_C
  dsimp only
  sl_unfold_words
  -- two stores of the whole block: the later one adds the bias row to the earlier one (the sum) read back
  rw [View.canon_cons_unit_zero (S := S512x768) zeroOff2, View.readCov_unit_zero (S := S512x768) _ zeroOff2]
  simp only [View.readAt_eq_ld, harg2.read_unread, harg3.read_unread, harg4.read_unread, harg5.read_unread,
    harg6.read_unread, View.ld_unit_zero (S := S512x384) zeroOff2, View.ld_unit_zero (S := S512x768) zeroOff2,
    View.ld_unit_zero (S := S1x768) zeroOff2]
  rfl

/-- The column slice read at an index: column ii of the slice is column 16 (i 1) + ii of the block. -/
theorem slice16_apply (i : grid1.Coords) (x0 : Vec F S512x384 .f32) (r : Fin 512) (ii : Fin 16)
    (hlt : 16 * (i 1).val + ii.val < 384) :
    slice16 i x0 (ix2 r ii) = x0 (ix2 r ⟨16 * (i 1).val + ii.val, hlt⟩) := by
  have h0 : k1_off1 i 0 = 0 := by rw [k1_off1_eq]; rfl
  have h1 : k1_off1 i 1 = 16 * (i 1).val := by rw [k1_off1_eq]; rfl
  show x0 ((Rect.unit (s := S512x384) (k1_off1 i) S512x16.size (k1_off1_inb i)).idx (ix2 r ii)) = _
  refine congrArg x0 (funext fun a => Fin.ext ?_)
  match a with
  | ⟨0, _⟩ => show k1_off1 i 0 + 1 * r.val = r.val; omega
  | ⟨1, _⟩ => show k1_off1 i 1 + 1 * ii.val = 16 * (i 1).val + ii.val; omega

/-- A load of the 768 x 1 x 384 row at position k of the middle axis reads row k of the block: through a
    unit-stride rectangle the coordinate read is the offset plus the coordinate inside. -/
theorem row_apply (x2 : Vec F S768x16x384 .f32) (k : Nat) (hk : k < 16)
    (hinb : ∀ a, (![0, k, 0] : Fin 3 → Nat) a + S768x1x384.size a ≤ S768x16x384.size a) (n : Fin 768) (j : Fin 384) :
    View.ld x2 (Rect.unit (s := S768x16x384) ![0, k, 0] S768x1x384.size hinb) (ix3 n 0 j) = x2 (ix3 n ⟨k, hk⟩ j) := by
  show x2 ((Rect.unit (s := S768x16x384) ![0, k, 0] S768x1x384.size hinb).idx (ix3 n 0 j)) = _
  refine congrArg x2 (funext fun a => Fin.ext ?_)
  match a with
  | ⟨0, _⟩ => show 0 + 1 * n.val = n.val; omega
  | ⟨1, _⟩ => show k + 1 * 0 = k; omega
  | ⟨2, _⟩ => show 0 + 1 * j.val = j.val; omega

/-- Row ii of the loaded weight rows is row ii of the weight block. -/
theorem rows16_apply (x2 : Vec F S768x16x384 .f32) (ii : Fin 16) (n : Fin 768) (j : Fin 384) :
    rows16 x2 ii (ix3 n 0 j) = x2 (ix3 n ii j) :=
  match ii with
  | ⟨0, h⟩ => row_apply x2 0 h inb_S768x16x384_S768x1x384_0_0_0 n j
  | ⟨1, h⟩ => row_apply x2 1 h inb_S768x16x384_S768x1x384_0_1_0 n j
  | ⟨2, h⟩ => row_apply x2 2 h inb_S768x16x384_S768x1x384_0_2_0 n j
  | ⟨3, h⟩ => row_apply x2 3 h inb_S768x16x384_S768x1x384_0_3_0 n j
  | ⟨4, h⟩ => row_apply x2 4 h inb_S768x16x384_S768x1x384_0_4_0 n j
  | ⟨5, h⟩ => row_apply x2 5 h inb_S768x16x384_S768x1x384_0_5_0 n j
  | ⟨6, h⟩ => row_apply x2 6 h inb_S768x16x384_S768x1x384_0_6_0 n j
  | ⟨7, h⟩ => row_apply x2 7 h inb_S768x16x384_S768x1x384_0_7_0 n j
  | ⟨8, h⟩ => row_apply x2 8 h inb_S768x16x384_S768x1x384_0_8_0 n j
  | ⟨9, h⟩ => row_apply x2 9 h inb_S768x16x384_S768x1x384_0_9_0 n j
  | ⟨10, h⟩ => row_apply x2 10 h inb_S768x16x384_S768x1x384_0_10_0 n j
  | ⟨11, h⟩ => row_apply x2 11 h inb_S768x16x384_S768x1x384_0_11_0 n j
  | ⟨12, h⟩ => row_apply x2 12 h inb_S768x16x384_S768x1x384_0_12_0 n j
  | ⟨13, h⟩ => row_apply x2 13 h inb_S768x16x384_S768x1x384_0_13_0 n j
  | ⟨14, h⟩ => row_apply x2 14 h inb_S768x16x384_S768x1x384_0_14_0 n j
  | ⟨15, h⟩ => row_apply x2 15 h inb_S768x16x384_S768x1x384_0_15_0 n j
  | ⟨k + 16, h⟩ => absurd h (by omega)

end Cert.KernelIdeal.Wide

end
-- ==== Proof.WidePayload.lean ====
/-
  The wide kernel's arithmetic read at an index, over the extended reals.
-/
import proofs.«148149_j79920751444429_1_alg».proof.Proof.WideBody
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Wide

open Idealize.ShloMosaic Idealize.ShloMosaic.ValueIdx Cert.KernelIdeal Cert.KernelIdeal.Gen

/-! ## The product's operand indices, axis by axis -/

/-- The left operand is read at the output's row. -/
theorem lhs_dot_0 (i : S512x768.Idx) (q : dot_S512x384_S384x768_S512x768_1_0_0_1_n_n.contr.Idx) :
    (dot_S512x384_S384x768_S512x768_1_0_0_1_n_n.lhsIdx i q 0).val = (i 0).val := by
  unfold DotDims.lhsIdx
  rw [dif_neg (show ¬(0 : Fin S512x384.rank) ∈ dot_S512x384_S384x768_S512x768_1_0_0_1_n_n.lhsBatch by decide), dif_pos (show (0 : Fin S512x384.rank) ∈ dot_S512x384_S384x768_S512x768_1_0_0_1_n_n.lhsNonContracting by decide)]
  rfl
/-- The left operand's column is the summation index. -/
theorem lhs_dot_1 (i : S512x768.Idx) (q : dot_S512x384_S384x768_S512x768_1_0_0_1_n_n.contr.Idx) :
    (dot_S512x384_S384x768_S512x768_1_0_0_1_n_n.lhsIdx i q 1).val = (q ⟨0, by decide⟩).val :=
  dot_S512x384_S384x768_S512x768_1_0_0_1_n_n.lhsIdx_val_of_single rfl i q
/-- The right operand's row is the summation index. -/
theorem rhs_dot_0 (i : S512x768.Idx) (q : dot_S512x384_S384x768_S512x768_1_0_0_1_n_n.contr.Idx) :
    (dot_S512x384_S384x768_S512x768_1_0_0_1_n_n.rhsIdx i q 0).val = (q ⟨0, by decide⟩).val :=
  dot_S512x384_S384x768_S512x768_1_0_0_1_n_n.rhsIdx_val_of_single rfl i q
/-- The right operand is read at the output's column. -/
theorem rhs_dot_1 (i : S512x768.Idx) (q : dot_S512x384_S384x768_S512x768_1_0_0_1_n_n.contr.Idx) :
    (dot_S512x384_S384x768_S512x768_1_0_0_1_n_n.rhsIdx i q 1).val = (i 1).val := by
  unfold DotDims.rhsIdx
  rw [dif_neg (show ¬(1 : Fin S384x768.rank) ∈ dot_S512x384_S384x768_S512x768_1_0_0_1_n_n.rhsBatch by decide), dif_pos (show (1 : Fin S384x768.rank) ∈ dot_S512x384_S384x768_S512x768_1_0_0_1_n_n.rhsNonContracting by decide)]
  rfl

/-- A 512 x 384 by 384 x 768 product into the zero accumulator, at row r and column n: the plain inner product. -/
theorem dot_apply (a : FVec Ideal S512x384 .bf16) (b : FVec Ideal S384x768 .bf16) (r : Fin 512) (n : Fin 768) :
    matmul dot_S512x384_S384x768_S512x768_1_0_0_1_n_n none a b (constant S512x768 .f32 0x00000000#32) (ix2 r n)
      = ∑ j : Fin 384, a (ix2 r j) * b (ix2 j n) := by
  simp only [matmul]
  rw [Ideal.matmul_constant_zero_apply, ← Equiv.sum_comp (contrEquiv1 dot_S512x384_S384x768_S512x768_1_0_0_1_n_n 384 rfl rfl).symm]
  refine Finset.sum_congr rfl fun k _ => ?_
  have hk := contrEquiv1_symm_val dot_S512x384_S384x768_S512x768_1_0_0_1_n_n 384 rfl rfl k
  have el : dot_S512x384_S384x768_S512x768_1_0_0_1_n_n.lhsIdx (ix2 r n) ((contrEquiv1 dot_S512x384_S384x768_S512x768_1_0_0_1_n_n 384 rfl rfl).symm k) = ix2 r k := funext fun a => Fin.ext (by
    match a with
    | ⟨0, _⟩ => exact lhs_dot_0 _ _
    | ⟨1, _⟩ => exact (lhs_dot_1 _ _).trans hk)
  have er : dot_S512x384_S384x768_S512x768_1_0_0_1_n_n.rhsIdx (ix2 r n) ((contrEquiv1 dot_S512x384_S384x768_S512x768_1_0_0_1_n_n 384 rfl rfl).symm k) = ix2 k n := funext fun a => Fin.ext (by
    match a with
    | ⟨0, _⟩ => exact (rhs_dot_0 _ _).trans hk
    | ⟨1, _⟩ => exact rhs_dot_1 _ _)
  rw [el, er]

/-- A weight row, its unit axis dropped and transposed, at (j, n): the row's entry (n, 0, j). -/
theorem wT_apply (wv : Vec Ideal S768x1x384 .f32) (h1 : S768x1x384.ShapeCasts S768x384)
    (h2 : FTy.bits .bf16 < FTy.bits .f32) (h3 : S768x384.Transposes [1, 0] S384x768) (j : Fin 384) (n : Fin 768) :
    transpose S384x768 [1, 0] (truncf (F := Ideal) .bf16 (shapeCast S768x384 wv h1) h2) h3 (ix2 j n) = wv (ix3 n 0 j) := by
  refine (transpose_ix2_apply _ h3 j n).trans ?_
  refine (truncf_apply _ h2 _).trans ?_
  refine shapeCast_apply wv h1 (ix2 n j) (ix3 n 0 j) ?_
  rw [Shape.rowMajor_val_three, Shape.rowMajor_val_two]
  show ((n : ℕ) * 1 + 0) * 384 + (j : ℕ) = (n : ℕ) * 384 + (j : ℕ)
  omega

/-- One feature's inner product at row r and column n. -/
theorem inner_apply (v4 : FVec Ideal S512x384 .bf16) (wv : Vec Ideal S768x1x384 .f32) (h1 : S768x1x384.ShapeCasts S768x384)
    (h2 : FTy.bits .bf16 < FTy.bits .f32) (h3 : S768x384.Transposes [1, 0] S384x768) (r : Fin 512) (n : Fin 768) :
    matmul dot_S512x384_S384x768_S512x768_1_0_0_1_n_n none v4
        (transpose S384x768 [1, 0] (truncf (F := Ideal) .bf16 (shapeCast S768x384 wv h1) h2) h3)
        (constant S512x768 .f32 0x00000000#32) (ix2 r n)
      = ∑ j : Fin 384, v4 (ix2 r j) * wv (ix3 n 0 j) := by
  refine (dot_apply v4 _ r n).trans ?_
  exact Finset.sum_congr rfl fun j _ => congrArg (v4 (ix2 r j) * ·) (wT_apply wv h1 h2 h3 j n)

/-- Column k of the feature slice spread over the 768 output columns, at (r, n): the slice's entry (r, k). -/
theorem col_apply (v8 : Vec Ideal S512x16 .f32) (k : Fin 16) (h : S512x16.Slices ![0, k.val] S512x1)
    (h' : S512x1.Broadcasts S512x768) (r : Fin 512) (n : Fin 768) :
    broadcastTo S512x768 (extractStridedSlice S512x1 ![0, k.val] v8 h) h' (ix2 r n) = v8 (ix2 r k) := by
  refine (broadcastTo_apply _ h' (ix2 r n) (ix2 r (0 : Fin 1)) fun ax => ?_).trans ?_
  · match ax with
    | ⟨0, _⟩ => show r.val = if (512 : ℕ) = 1 then 0 else r.val; rw [if_neg (by decide)]
    | ⟨1, _⟩ => show (0 : ℕ) = if (1 : ℕ) = 1 then 0 else n.val; rw [if_pos rfl]
  · exact slice2_axis1_apply k.val v8 h r (0 : Fin 1) k rfl

/-! ## One feature's contribution, and the chain of partial sums -/

/-- The zero splat the first partial sum starts from. -/
theorem zero_splat_apply (i : S512x768.Idx) :
    broadcast S512x768 (Scalar.ofBits (F := Ideal) .f32 0x00000000#32) i = 0 :=
  Ideal.ofBits_zero_f32

/-- Feature k's contribution at row r, column n: the slice's entry (r, k) times the inner product of row r of the
    second block with the weight row. -/
def contrib (v4 : FVec Ideal S512x384 .bf16) (v8 : Vec Ideal S512x16 .f32) (wv : Vec Ideal S768x1x384 .f32)
    (r : Fin 512) (n : Fin 768) (k : Fin 16) : EReal :=
  v8 (ix2 r k) * ∑ j : Fin 384, v4 (ix2 r j) * wv (ix3 n 0 j)

/-- One link of the chain: a partial sum plus feature k's column times its product. -/
theorem step_apply (acc : FVec Ideal S512x768 .f32) (v4 : FVec Ideal S512x384 .bf16) (v8 : Vec Ideal S512x16 .f32)
    (k : Fin 16) (wv : Vec Ideal S768x1x384 .f32) (h : S512x16.Slices ![0, k.val] S512x1) (h' : S512x1.Broadcasts S512x768)
    (h1 : S768x1x384.ShapeCasts S768x384) (h2 : FTy.bits .bf16 < FTy.bits .f32) (h3 : S768x384.Transposes [1, 0] S384x768)
    (r : Fin 512) (n : Fin 768) (a : EReal) (ha : acc (ix2 r n) = a) :
    addf acc (mulf (broadcastTo S512x768 (extractStridedSlice S512x1 ![0, k.val] v8 h) h')
        (matmul dot_S512x384_S384x768_S512x768_1_0_0_1_n_n none v4
          (transpose S384x768 [1, 0] (truncf (F := Ideal) .bf16 (shapeCast S768x384 wv h1) h2) h3)
          (constant S512x768 .f32 0x00000000#32))) (ix2 r n)
      = a + contrib v4 v8 wv r n k :=
  (addf_apply _ _ _).trans (congrArg₂ (· + ·) ha
    ((mulf_apply _ _ _).trans (congrArg₂ (· * ·) (col_apply v8 k h h' r n) (inner_apply v4 wv h1 h2 h3 r n))))

/-- The first partial sum: features 0, 1, 2 onto the zero splat. -/
theorem pay4_apply (v3 : Vec Ideal S512x384 .f32) (v8 : Vec Ideal S512x16 .f32) (w0 w1 w2 : Vec Ideal S768x1x384 .f32)
    (r : Fin 512) (n : Fin 768) :
    k1_pay4 (F := Ideal) v3 v8 w0 w1 w2 (ix2 r n)
      = 0 + contrib (k1_pay3 v3) v8 w0 r n 0 + contrib (k1_pay3 v3) v8 w1 r n 1 + contrib (k1_pay3 v3) v8 w2 r n 2 := by
  unfold k1_pay4
  exact step_apply _ (k1_pay3 v3) v8 2 w2 _ _ _ _ _ r n _
    (step_apply _ (k1_pay3 v3) v8 1 w1 _ _ _ _ _ r n _
      (step_apply _ (k1_pay3 v3) v8 0 w0 _ _ _ _ _ r n _ (zero_splat_apply _)))

/-- The second: features 3 to 6 onto the first. -/
theorem pay6_apply (v4 : FVec Ideal S512x384 .bf16) (v8 : Vec Ideal S512x16 .f32) (v36 : FVec Ideal S512x768 .f32)
    (w3 w4 w5 w6 : Vec Ideal S768x1x384 .f32) (r : Fin 512) (n : Fin 768) (a : EReal) (ha : v36 (ix2 r n) = a) :
    k1_pay6 (F := Ideal) v4 v8 v36 (k1_pay5 v8) w3 w4 w5 w6 (ix2 r n)
      = a + contrib v4 v8 w3 r n 3 + contrib v4 v8 w4 r n 4 + contrib v4 v8 w5 r n 5 + contrib v4 v8 w6 r n 6 := by
  unfold k1_pay6 k1_pay5
  exact step_apply _ v4 v8 6 w6 _ _ _ _ _ r n _
    (step_apply _ v4 v8 5 w5 _ _ _ _ _ r n _
      (step_apply _ v4 v8 4 w4 _ _ _ _ _ r n _
        (step_apply _ v4 v8 3 w3 _ _ _ _ _ r n _ ha)))

/-- The third: features 7 to 11 onto the second (feature 7's weight row arrives already transposed). -/
theorem pay9_apply (v4 : FVec Ideal S512x384 .bf16) (v8 : Vec Ideal S512x16 .f32) (v72 : FVec Ideal S512x768 .f32)
    (w7 w8 w9 w10 w11 : Vec Ideal S768x1x384 .f32) (r : Fin 512) (n : Fin 768) (a : EReal) (ha : v72 (ix2 r n) = a) :
    k1_pay9 (F := Ideal) v4 v8 v72 (k1_pay7 v8) (k1_pay8 w7) (constant S512x768 .f32 0x00000000#32) w8 w9 w10 w11 (ix2 r n)
      = a + contrib v4 v8 w7 r n 7 + contrib v4 v8 w8 r n 8 + contrib v4 v8 w9 r n 9 + contrib v4 v8 w10 r n 10
          + contrib v4 v8 w11 r n 11 := by
  unfold k1_pay9 k1_pay7 k1_pay8
  exact step_apply _ v4 v8 11 w11 _ _ _ _ _ r n _
    (step_apply _ v4 v8 10 w10 _ _ _ _ _ r n _
      (step_apply _ v4 v8 9 w9 _ _ _ _ _ r n _
        (step_apply _ v4 v8 8 w8 _ _ _ _ _ r n _
          (step_apply _ v4 v8 7 w7 _ _ _ _ _ r n _ ha))))

/-- The last: features 12 to 15 onto the third, and the whole added to the running output. -/
theorem pay11_apply (v4 : FVec Ideal S512x384 .bf16) (v8 : Vec Ideal S512x16 .f32) (v117 : FVec Ideal S512x768 .f32)
    (w12 w13 w14 w15 : Vec Ideal S768x1x384 .f32) (prev : Vec Ideal S512x768 .f32) (r : Fin 512) (n : Fin 768)
    (a : EReal) (ha : v117 (ix2 r n) = a) :
    k1_pay11 (F := Ideal) v4 v8 v117 (k1_pay10 v8) w12 w13 w14 w15 prev (ix2 r n)
      = prev (ix2 r n) + (a + contrib v4 v8 w12 r n 12 + contrib v4 v8 w13 r n 13 + contrib v4 v8 w14 r n 14
          + contrib v4 v8 w15 r n 15) := by
  unfold k1_pay11 k1_pay10
  refine (addf_apply _ _ _).trans (congrArg₂ (· + ·) ?_ ?_)
  · exact congrFun (shapeCast_self prev _) _
  · exact step_apply _ v4 v8 15 w15 _ _ _ _ _ r n _
      (step_apply _ v4 v8 14 w14 _ _ _ _ _ r n _
        (step_apply _ v4 v8 13 w13 _ _ _ _ _ r n _
          (step_apply _ v4 v8 12 w12 _ _ _ _ _ r n _ ha)))

/-- A sum over sixteen features, written out from the left. -/
theorem sum16 (f : Fin 16 → EReal) :
    ∑ i, f i = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-- One point's value at row r, column n: the running output plus, over the sixteen features of the tile,
    the feature's entry times the inner product of the second block's row with the weight row. -/
theorem bodyAcc_apply (v3 : Vec Ideal S512x384 .f32) (v8 : Vec Ideal S512x16 .f32)
    (w : Fin 16 → Vec Ideal S768x1x384 .f32) (prev : Vec Ideal S512x768 .f32) (r : Fin 512) (n : Fin 768) :
    bodyAcc (F := Ideal) v3 v8 w prev (ix2 r n)
      = prev (ix2 r n) + ∑ ii : Fin 16, v8 (ix2 r ii) * ∑ j : Fin 384, v3 (ix2 r j) * w ii (ix3 n 0 j) := by
  unfold bodyAcc
  refine (pay11_apply (k1_pay3 v3) v8 _ (w 12) (w 13) (w 14) (w 15) prev r n _
    (pay9_apply (k1_pay3 v3) v8 _ (w 7) (w 8) (w 9) (w 10) (w 11) r n _
      (pay6_apply (k1_pay3 v3) v8 _ (w 3) (w 4) (w 5) (w 6) r n _
        (pay4_apply v3 v8 (w 0) (w 1) (w 2) r n)))).trans ?_
  exact congrArg (prev (ix2 r n) + ·)
    (sum16 fun ii => v8 (ix2 r ii) * ∑ j : Fin 384, v3 (ix2 r j) * w ii (ix3 n 0 j)).symm

/-- The closing store of a batch half adds the bias row. -/
theorem pay1_apply (a : Vec Ideal S512x768 .f32) (bv : Vec Ideal S1x768 .f32) (r : Fin 512) (n : Fin 768) :
    k1_pay1 (F := Ideal) a bv (ix2 r n) = a (ix2 r n) + bv (ix2 0 n) := by
  unfold k1_pay1
  refine (addf_apply _ _ _).trans (congrArg₂ (· + ·) ?_ ?_)
  · exact congrFun (shapeCast_self a _) _
  · refine (broadcastTo_1b_ab_apply _ _ r n).trans ?_
    exact congrFun (shapeCast_self bv _) _

/-- The opening store of a batch half writes zeros. -/
theorem pay2_apply (r : Fin 512) (n : Fin 768) : k1_pay2 (F := Ideal) (ix2 r n) = 0 := by
  unfold k1_pay2
  exact Ideal.ofBits_zero_f32

end Cert.KernelIdeal.Wide

end
-- ==== Proof.Region1Value.lean ====
/-
  What the wide kernel leaves in its output array: per batch half the 24 tiles' sums accumulated in the
  output block, the bias row added at the last tile.

  The grid has 48 points; point t works on batch half t / 24 (rows 512 (t / 24) .. 512 (t / 24) + 511) and on
  tile t % 24 (features 16 (t % 24) .. 16 (t % 24) + 15 of the first array). The output block of a batch half
  stays in place over its 24 points: the first point starts from zeros, every point adds, at row r and column n,
      sum over ii < 16 of hs[b, 16 ki + ii] * (sum over j < 384 of ht[b, j] * W3[n, 16 ki + ii, j]),   b = 512 (t / 24) + r, ki = t % 24,
  and the last point adds the bias entry and is the one whose block is written back. So after point t the block
  holds the terms of tiles 0 .. t % 24 (a partial sum over a range of tiles, by induction on the point; only
  associativity of + and 0 + x = x are used, which hold on the extended reals), and what is written back at
  t % 24 = 23 is the block of the wide half as the specification states it. The two written-back blocks cover
  the 1024 rows.
-/
import proofs.«148149_j79920751444429_1_alg».proof.Proof.Gen.KernelIdeal.Frame
import proofs.«148149_j79920751444429_1_alg».proof.Proof.Spec
import proofs.«148149_j79920751444429_1_alg».proof.Proof.WidePieces
import proofs.«148149_j79920751444429_1_alg».proof.Proof.WidePayload
import Idealize.ShloMosaic.Lib.Pipeline.Value
import Idealize.ShloMosaic.Lib.ValueIdx

set_option maxRecDepth 16384

noncomputable section

open scoped BigOperators

namespace Cert.KernelIdeal.Wide

open Idealize.ShloMosaic Idealize.ShloMosaic.TcCoe Idealize.ShloMosaic.ValueIdx Idealize.SL.Sem Cert.KernelIdeal Cert.KernelIdeal.Gen Cert.DeepWide
open Idealize.ShloMosaic.Pipeline (Dat)

/-! ## Names of literal type for the arrays the kernel is entered with and for the blocks a point reads -/

section Blocks
variable {F : FTy → Type} [FloatOps F]
variable (V : (c : Dev nD) → (b : Ref sig .tc) → Buf (Elt F) ((c : Thread nD τ).loc b)) (c : Dev nD)

/-- The four arrays the kernel is entered with: the two feature arrays, the weight, the bias row. -/
abbrev arrHs : Vec F S1024x384 .f32 := V c main_arg0
abbrev arrHt : Vec F S1024x384 .f32 := V c main_arg1
abbrev arrW : Vec F S768x384x384 .f32 := V c main_v4
abbrev arrB : Vec F S1x768 .f32 := V c main_v5
/-- Their blocks at point t. -/
abbrev blkHs (t : Fin cfg1.N) : Vec F S512x384 .f32 := iblk1 V c 0 t
abbrev blkHt (t : Fin cfg1.N) : Vec F S512x384 .f32 := iblk1 V c 1 t
abbrev blkW (t : Fin cfg1.N) : Vec F S768x16x384 .f32 := iblk1 V c 2 t
abbrev blkB (t : Fin cfg1.N) : Vec F S1x768 .f32 := iblk1 V c 3 t

/-- The block index of each window at point t, and the point's tile coordinate, over the 48 points: the two feature
    arrays and the output move with the batch half t / 24, the weight with the tile t % 24, the bias row stays. -/
theorem idx_facts : ∀ t : Fin cfg1.N,
    win1_0.index t (0 : Fin 2) = t.val / 24 ∧ win1_0.index t (1 : Fin 2) = 0
  ∧ win1_1.index t (0 : Fin 2) = t.val / 24 ∧ win1_1.index t (1 : Fin 2) = 0
  ∧ win1_2.index t (0 : Fin 3) = 0 ∧ win1_2.index t (1 : Fin 3) = t.val % 24 ∧ win1_2.index t (2 : Fin 3) = 0
  ∧ win1_3.index t (0 : Fin 2) = 0 ∧ win1_3.index t (1 : Fin 2) = 0
  ∧ win1_4.index t (0 : Fin 2) = t.val / 24 ∧ win1_4.index t (1 : Fin 2) = 0
  ∧ ((grid1.coords t) 1).val = t.val % 24 :=
  (by decide +kernel : ∀ t : Fin grid1.N, _)

/-- Row r of the first feature block at point t is row 512 (t / 24) + r of the first feature array. -/
theorem blkHs_apply (t : Fin cfg1.N) (r : Fin 512) (j : Fin 384) (b : Fin 1024) (hb : b.val = 512 * (t.val / 24) + r.val) :
    blkHs V c t (ix2 r j) = arrHs V c (ix2 b j) := by
  show iblk1 V c 0 t (ix2 r j) = _
  unfold iblk1
  rw [View.read_apply]
  show V c main_arg0 _ = V c main_arg0 _
  congr 1
  funext a
  apply Fin.ext
  match a with
  | ⟨0, _⟩ => show win1_0.index t 0 * 512 + 1 * r.val = b.val; rw [(idx_facts t).1]; omega
  | ⟨1, _⟩ => show win1_0.index t 1 * 384 + 1 * j.val = j.val; rw [(idx_facts t).2.1]; omega

/-- Row r of the second feature block at point t is row 512 (t / 24) + r of the second feature array. -/
theorem blkHt_apply (t : Fin cfg1.N) (r : Fin 512) (j : Fin 384) (b : Fin 1024) (hb : b.val = 512 * (t.val / 24) + r.val) :
    blkHt V c t (ix2 r j) = arrHt V c (ix2 b j) := by
  show iblk1 V c 1 t (ix2 r j) = _
  unfold iblk1
  rw [View.read_apply]
  show V c main_arg1 _ = V c main_arg1 _
  congr 1
  funext a
  apply Fin.ext
  match a with
  | ⟨0, _⟩ => show win1_1.index t 0 * 512 + 1 * r.val = b.val; rw [(idx_facts t).2.2.1]; omega
  | ⟨1, _⟩ => show win1_1.index t 1 * 384 + 1 * j.val = j.val; rw [(idx_facts t).2.2.2.1]; omega

/-- Feature ii of the weight block at point t is feature 16 (t % 24) + ii of the weight array. -/
theorem blkW_apply (t : Fin cfg1.N) (n : Fin 768) (ii : Fin 16) (j : Fin 384) (f : Fin 384) (hf : f.val = 16 * (t.val % 24) + ii.val) :
    blkW V c t (ix3 n ii j) = arrW V c (ix3 n f j) := by
  show iblk1 V c 2 t (ix3 n ii j) = _
  unfold iblk1
  rw [View.read_apply]
  show V c main_v4 _ = V c main_v4 _
  congr 1
  funext a
  apply Fin.ext
  match a with
  | ⟨0, _⟩ => show win1_2.index t 0 * 768 + 1 * n.val = n.val; rw [(idx_facts t).2.2.2.2.1]; omega
  | ⟨1, _⟩ => show win1_2.index t 1 * 16 + 1 * ii.val = f.val; rw [(idx_facts t).2.2.2.2.2.1]; omega
  | ⟨2, _⟩ => show win1_2.index t 2 * 384 + 1 * j.val = j.val; rw [(idx_facts t).2.2.2.2.2.2.1]; omega

/-- The bias block is the bias row at every point. -/
theorem blkB_apply (t : Fin cfg1.N) (n : Fin 768) : blkB V c t (ix2 0 n) = arrB V c (ix2 0 n) := by
  show iblk1 V c 3 t (ix2 0 n) = _
  unfold iblk1
  rw [View.read_apply]
  show V c main_v5 _ = V c main_v5 _
  congr 1
  funext a
  apply Fin.ext
  match a with
  | ⟨0, _⟩ => show win1_3.index t 0 * 1 + 1 * 0 = 0; rw [(idx_facts t).2.2.2.2.2.2.2.1]
  | ⟨1, _⟩ => show win1_3.index t 1 * 768 + 1 * n.val = n.val; rw [(idx_facts t).2.2.2.2.2.2.2.2.1]; omega

end Blocks

/-! ## One tile's term, and the sum a point adds -/

/-- Tile ki's term of row b, column n: over the tile's sixteen features, the feature's entry times the inner
    product of the second array's row with the weight's row. -/
def tileT (hs ht : A2 1024 384) (W3 : A3 768 384 384) (b : Fin 1024) (n : Fin 768) (ki : Fin 24) : EReal :=
  ∑ ii : Fin 16, hs (ix2 b (tileIdx ki ii)) * ∑ j : Fin 384, ht (ix2 b j) * W3 (ix3 n (tileIdx ki ii) j)

/-- The same term with the tile a natural number (zero past the last tile), so that partial sums over
    a range of tiles need no bound. -/
def tileN (hs ht : A2 1024 384) (W3 : A3 768 384 384) (b : Fin 1024) (n : Fin 768) (s : Nat) : EReal :=
  if h : s < 24 then tileT hs ht W3 b n ⟨s, h⟩ else 0

section Value
variable (V : (c : Dev nD) → (b : Ref sig .tc) → Buf (Elt Ideal) ((c : Thread nD τ).loc b)) (c : Dev nD)

/-- What point t adds at row r, column n of its block, over the blocks it reads. -/
def stepSum (t : Fin cfg1.N) (r : Fin 512) (n : Fin 768) : EReal :=
  ∑ ii : Fin 16, slice16 (grid1.coords t) (blkHs V c t) (ix2 r ii)
    * ∑ j : Fin 384, blkHt V c t (ix2 r j) * rows16 (blkW V c t) ii (ix3 n 0 j)

/-- It is the term of tile t % 24 at row 512 (t / 24) + r of the arrays. -/
theorem stepSum_eq (t : Fin cfg1.N) (r : Fin 512) (n : Fin 768) (b : Fin 1024) (hb : b.val = 512 * (t.val / 24) + r.val) :
    stepSum V c t r n = tileN (arrHs V c) (arrHt V c) (arrW V c) b n (t.val % 24) := by
  have hk : t.val % 24 < 24 := Nat.mod_lt _ (by decide)
  have hc1 : ((grid1.coords t) 1).val = t.val % 24 := (idx_facts t).2.2.2.2.2.2.2.2.2.2.2
  unfold stepSum tileN
  rw [dif_pos hk]
  unfold tileT
  refine Finset.sum_congr rfl fun ii _ => ?_
  have hlt : 16 * ((grid1.coords t) 1).val + ii.val < 384 := by rw [hc1]; omega
  have hidx : (⟨16 * ((grid1.coords t) 1).val + ii.val, hlt⟩ : Fin 384) = tileIdx ⟨t.val % 24, hk⟩ ii :=
    Fin.ext (by rw [tileIdx_val]; show 16 * ((grid1.coords t) 1).val + ii.val = 16 * (t.val % 24) + ii.val; rw [hc1])
  rw [slice16_apply (grid1.coords t) (blkHs V c t) r ii hlt, hidx,
    blkHs_apply V c t r (tileIdx ⟨t.val % 24, hk⟩ ii) b hb]
  congr 1
  refine Finset.sum_congr rfl fun j _ => ?_
  rw [blkHt_apply V c t r j b hb, rows16_apply (blkW V c t) ii n j,
    blkW_apply V c t n ii j (tileIdx ⟨t.val % 24, hk⟩ ii) (tileIdx_val _ _)]

/-- The first point of a batch half leaves the point's sum over zeros. -/
theorem outs_A (t : Fin cfg1.N) (h0 : t.val % 24 = 0) (h1 : ¬t.val % 24 = 23) (r : Fin 512) (n : Fin 768) :
    outsAt1 V c t.val t.isLt (ix2 r n) = 0 + stepSum V c t r n := by
  refine (congrFun ((outsAt1_A V c t h0 h1).trans
    (out1_A_4_eq c (grid1.coords t) (ms1_0 t) (hs1_0 t) (ms1_1 t) (hs1_1 t) (ms1_2 t) (hs1_2 t) (ms1_3 t) (hs1_3 t)
      (ms1_4 t) (hs1_4 t) ((hcond1_0 t).mpr h0) (fun h => h1 ((hcond1_1 t).mp h))
      (blkHs V c t) (blkHt V c t) (blkW V c t) (blkB V c t))) (ix2 r n)).trans ?_
  refine (bodyAcc_apply (blkHt V c t) (slice16 (grid1.coords t) (blkHs V c t)) (rows16 (blkW V c t))
    (k1_pay2 (F := Ideal)) r n).trans ?_
  rw [pay2_apply r n]
  rfl

/-- A middle point adds its sum to what the point before left. -/
theorem outs_B (t : Fin cfg1.N) (h0 : ¬t.val % 24 = 0) (h1 : ¬t.val % 24 = 23) (r : Fin 512) (n : Fin 768) :
    outsAt1 V c t.val t.isLt (ix2 r n)
      = outsAt1 V c (t.val - 1) (Nat.lt_of_le_of_lt (Nat.sub_le _ _) t.isLt) (ix2 r n) + stepSum V c t r n := by
  refine (congrFun ((outsAt1_B V c t h0 h1).trans
    (out1_B_4_eq c (grid1.coords t) (ms1_0 t) (hs1_0 t) (ms1_1 t) (hs1_1 t) (ms1_2 t) (hs1_2 t) (ms1_3 t) (hs1_3 t)
      (ms1_4 t) (hs1_4 t) (fun h => h0 ((hcond1_0 t).mp h)) (fun h => h1 ((hcond1_1 t).mp h))
      (blkHs V c t) (blkHt V c t) (blkW V c t) (blkB V c t)
      (outsAt1 V c (t.val - 1) (Nat.lt_of_le_of_lt (Nat.sub_le _ _) t.isLt)))) (ix2 r n)).trans ?_
  exact bodyAcc_apply (blkHt V c t) (slice16 (grid1.coords t) (blkHs V c t)) (rows16 (blkW V c t))
    (outsAt1 V c (t.val - 1) (Nat.lt_of_le_of_lt (Nat.sub_le _ _) t.isLt)) r n

/-- The last point of a batch half adds its sum, then the bias row. -/
theorem outs_C (t : Fin cfg1.N) (h0 : ¬t.val % 24 = 0) (h1 : t.val % 24 = 23) (r : Fin 512) (n : Fin 768) :
    outsAt1 V c t.val t.isLt (ix2 r n)
      = (outsAt1 V c (t.val - 1) (Nat.lt_of_le_of_lt (Nat.sub_le _ _) t.isLt) (ix2 r n) + stepSum V c t r n)
        + arrB V c (ix2 0 n) := by
  refine (congrFun ((outsAt1_C V c t h0 h1).trans
    (out1_C_4_eq c (grid1.coords t) (ms1_0 t) (hs1_0 t) (ms1_1 t) (hs1_1 t) (ms1_2 t) (hs1_2 t) (ms1_3 t) (hs1_3 t)
      (ms1_4 t) (hs1_4 t) (fun h => h0 ((hcond1_0 t).mp h)) ((hcond1_1 t).mpr h1)
      (blkHs V c t) (blkHt V c t) (blkW V c t) (blkB V c t)
      (outsAt1 V c (t.val - 1) (Nat.lt_of_le_of_lt (Nat.sub_le _ _) t.isLt)))) (ix2 r n)).trans ?_
  refine (pay1_apply (bodyAcc (F := Ideal) (blkHt V c t) (slice16 (grid1.coords t) (blkHs V c t)) (rows16 (blkW V c t))
    (outsAt1 V c (t.val - 1) (Nat.lt_of_le_of_lt (Nat.sub_le _ _) t.isLt))) (blkB V c t) r n).trans ?_
  rw [blkB_apply V c t n]
  exact congrArg (· + arrB V c (ix2 0 n))
    (bodyAcc_apply (blkHt V c t) (slice16 (grid1.coords t) (blkHs V c t)) (rows16 (blkW V c t))
      (outsAt1 V c (t.val - 1) (Nat.lt_of_le_of_lt (Nat.sub_le _ _) t.isLt)) r n)

/-- THE RUNNING SUM. After point n (batch half n / 24, tile n % 24) the output block holds, at row r and column q,
    the terms of tiles 0 .. n % 24 of row 512 (n / 24) + r of the arrays, and the bias entry once the last tile
    is in: by induction on the point. -/
theorem outs_inv : ∀ (n : ℕ) (hn : n < cfg1.N) (r : Fin 512) (q : Fin 768) (b : Fin 1024),
    b.val = 512 * (n / 24) + r.val →
    outsAt1 V c n hn (ix2 r q)
      = (∑ s ∈ Finset.range (n % 24 + 1), tileN (arrHs V c) (arrHt V c) (arrW V c) b q s)
        + (if n % 24 = 23 then arrB V c (ix2 0 q) else 0)
  | 0, hn, r, q, b, hb => by
    rw [outs_A V c ⟨0, hn⟩ rfl (show ¬(0 % 24 = 23) by decide) r q, stepSum_eq V c ⟨0, hn⟩ r q b hb]
    show 0 + tileN _ _ _ b q 0 = (∑ s ∈ Finset.range 1, tileN _ _ _ b q s) + 0
    rw [Finset.sum_range_one, zero_add, add_zero]
  | n + 1, hn, r, q, b, hb => by
    have hN : n + 1 < 48 := lt_of_lt_of_eq hn (show cfg1.N = 48 from N_1)
    by_cases h0 : (n + 1) % 24 = 0
    · have h1 : ¬(n + 1) % 24 = 23 := by omega
      rw [outs_A V c ⟨n + 1, hn⟩ h0 h1 r q, stepSum_eq V c ⟨n + 1, hn⟩ r q b hb]
      show 0 + tileN _ _ _ b q ((n + 1) % 24) = _
      rw [if_neg h1, h0, Finset.sum_range_one, zero_add, add_zero]
    · have hm : (n + 1) % 24 = n % 24 + 1 := by omega
      have hd : (n + 1) / 24 = n / 24 := by omega
      have hn23 : ¬n % 24 = 23 := by omega
      have ih := outs_inv n (Nat.lt_of_succ_lt hn) r q b (by rw [hb, hd])
      rw [if_neg hn23, add_zero] at ih
      by_cases h1 : (n + 1) % 24 = 23
      · rw [outs_C V c ⟨n + 1, hn⟩ h0 h1 r q, stepSum_eq V c ⟨n + 1, hn⟩ r q b hb]
        show (outsAt1 V c n _ (ix2 r q) + tileN _ _ _ b q ((n + 1) % 24)) + _ = _
        rw [ih, if_pos h1, hm, Finset.sum_range_succ _ (n % 24 + 1)]
      · rw [outs_B V c ⟨n + 1, hn⟩ h0 h1 r q, stepSum_eq V c ⟨n + 1, hn⟩ r q b hb]
        show outsAt1 V c n _ (ix2 r q) + tileN _ _ _ b q ((n + 1) % 24) = _
        rw [ih, if_neg h1, add_zero, hm, Finset.sum_range_succ _ (n % 24 + 1)]

/-- The full range of tiles is the sum over the 24 tiles. -/
theorem sum_tileN (hs ht : A2 1024 384) (W3 : A3 768 384 384) (b : Fin 1024) (n : Fin 768) :
    ∑ s ∈ Finset.range 24, tileN hs ht W3 b n s = ∑ ki : Fin 24, tileT hs ht W3 b n ki := by
  rw [Finset.sum_range]
  refine Finset.sum_congr rfl fun ki _ => ?_
  unfold tileN
  rw [dif_pos ki.isLt]

/-- WHAT A WRITE-BACK WRITES: the points that write the output block back are the last tiles' (t % 24 = 23), and
    there the block is the block of the wide half: all 24 tiles' terms and the bias. -/
theorem flushed_eq (t : Fin cfg1.N) (hf : (cfg1.win 4).flush t = true) :
    (dat1 V c).flushed 4 t
      = ((cfg1.win 4).blk t).view.read (Elt Ideal) (wideArr (arrHs V c) (arrHt V c) (arrW V c) (arrB V c)) := by
  have h23 : t.val % 24 = 23 := (flush1_4 t).mp hf
  have hN : t.val < 48 := lt_of_lt_of_eq t.isLt (show cfg1.N = 48 from N_1)
  show (cfg1.win 4).cut (grid1.coords t) ((dat1 V c).after 4 t) = _
  rw [after1_4]
  funext y
  obtain ⟨r, q, rfl⟩ : ∃ (r : Fin 512) (q : Fin 768), y = ix2 r q := ⟨y 0, y 1, eq_ix2 y⟩
  show outsAt1 V c t.val t.isLt (ix2 r q)
    = wideArr (arrHs V c) (arrHt V c) (arrW V c) (arrB V c) (((cfg1.win 4).blk t).view.emb (ix2 r q))
  have hemb : ((cfg1.win 4).blk t).view.emb (ix2 r q)
      = ix2 (⟨512 * (t.val / 24) + r.val, by omega⟩ : Fin 1024) q := by
    funext a
    apply Fin.ext
    match a with
    | ⟨0, _⟩ => show win1_4.index t 0 * 512 + 1 * r.val = 512 * (t.val / 24) + r.val
                rw [(idx_facts t).2.2.2.2.2.2.2.2.2.1]; omega
    | ⟨1, _⟩ => show win1_4.index t 1 * 768 + 1 * q.val = q.val
                rw [(idx_facts t).2.2.2.2.2.2.2.2.2.2.1]; omega
  rw [hemb, wideArr_ix2, outs_inv V c t.val t.isLt r q ⟨512 * (t.val / 24) + r.val, by omega⟩ rfl, h23, if_pos rfl]
  show (∑ s ∈ Finset.range 24, tileN _ _ _ _ q s) + _ = _
  rw [sum_tileN]
  rfl

/-- Every row of the array lies in the block the last tile of its batch half writes back. -/
theorem cover (i : S1024x768.Idx) :
    ∃ t : Fin cfg1.N, (cfg1.win 4).flush t = true ∧ i ∈ ((cfg1.win 4).blk t).view.set := by
  have hi0 : (i 0).val < 1024 := (i 0).isLt
  have hi1 : (i 1).val < 768 := (i 1).isLt
  have hlt : 24 * ((i 0).val / 512) + 23 < cfg1.N := by rw [show cfg1.N = 48 from N_1]; omega
  have hq : (24 * ((i 0).val / 512) + 23) / 24 = (i 0).val / 512 := by omega
  refine ⟨⟨24 * ((i 0).val / 512) + 23, hlt⟩, (flush1_4 _).mpr (by show (24 * ((i 0).val / 512) + 23) % 24 = 23; omega), ?_⟩
  show i ∈ ((View.whole main_v6).slice (win1_4.rect ⟨24 * ((i 0).val / 512) + 23, hlt⟩)).set
  rw [View.set_slice_whole, Rect.mem_set_unit]
  intro a
  match a with
  | ⟨0, _⟩ =>
    show win1_4.index ⟨24 * ((i 0).val / 512) + 23, hlt⟩ 0 * 512 ≤ (i 0).val
      ∧ (i 0).val < win1_4.index ⟨24 * ((i 0).val / 512) + 23, hlt⟩ 0 * 512 + 512
    rw [(idx_facts ⟨24 * ((i 0).val / 512) + 23, hlt⟩).2.2.2.2.2.2.2.2.2.1]
    show (24 * ((i 0).val / 512) + 23) / 24 * 512 ≤ (i 0).val ∧ (i 0).val < (24 * ((i 0).val / 512) + 23) / 24 * 512 + 512
    rw [hq]; omega
  | ⟨1, _⟩ =>
    show win1_4.index ⟨24 * ((i 0).val / 512) + 23, hlt⟩ 1 * 768 ≤ (i 1).val
      ∧ (i 1).val < win1_4.index ⟨24 * ((i 0).val / 512) + 23, hlt⟩ 1 * 768 + 768
    rw [(idx_facts ⟨24 * ((i 0).val / 512) + 23, hlt⟩).2.2.2.2.2.2.2.2.2.2.1]; omega

end Value

/-- After the wide kernel's 48 grid points its output array holds the wide half of the result in the
    tiled arrangement, as a function of the four arrays the kernel is entered with. -/
theorem region1_value (V : (c : Dev nD) → (b : Ref sig .tc) → Buf (Elt Ideal) ((c : Thread nD τ).loc b)) (c : Dev nD) :
    (dat1 (F := Ideal) V c).arrAt 4 cfg1.N = wideArr (V c main_arg0) (V c main_arg1) (V c main_v4) (V c main_v5) :=
  (dat1 V c).arrAt_eq_of_cover 4 (wideArr (arrHs V c) (arrHt V c) (arrW V c) (arrB V c)) (flushed_eq V c) cover

end Cert.KernelIdeal.Wide
end
-- ==== Proof.Algebra.lean ====
/-
  The tiled sum and the flattened contraction are one real number when every entry is real.
-/
import proofs.«148149_j79920751444429_1_alg».proof.Proof.Spec
import Mathlib.Data.EReal.Basic
import Mathlib.Data.EReal.Operations
import Mathlib.Algebra.BigOperators.Fin
import Mathlib.Data.Fintype.BigOperators
import Mathlib.Tactic.Ring

noncomputable section

open scoped BigOperators

namespace Cert.DeepWide

open Idealize.ShloMosaic Idealize.ShloMosaic.ValueIdx

/-- The coercion of a finite sum of reals is the sum of the coercions. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pair (tile, position) and the feature index 16 ki + ii are in bijection. -/
def tileEquiv : Fin 24 × Fin 16 ≃ Fin 384 where
  toFun p := tileIdx p.1 p.2
  invFun i := (⟨i.val / 16, by omega⟩, ⟨i.val % 16, by omega⟩)
  left_inv := by
    rintro ⟨ki, ii⟩
    apply Prod.ext <;> apply Fin.ext <;> simp only [tileIdx_val] <;> omega
  right_inv := by
    intro i
    apply Fin.ext
    simp only [tileIdx_val]
    omega

/-- The pair (i, j) and the flattened index 384 i + j are in bijection. -/
def flatEquiv : Fin 384 × Fin 384 ≃ Fin 147456 where
  toFun p := flatIdx p.1 p.2
  invFun k := (hiIdx k, loIdx k)
  left_inv := by
    rintro ⟨i, j⟩
    apply Prod.ext <;> apply Fin.ext <;> simp only [hiIdx_val, loIdx_val, flatIdx_val] <;> omega
  right_inv := by
    intro k
    apply Fin.ext
    simp only [hiIdx_val, loIdx_val, flatIdx_val]
    omega

theorem hiIdx_flatIdx (i j : Fin 384) : hiIdx (flatIdx i j) = i :=
  congrArg Prod.fst (flatEquiv.left_inv (i, j))

theorem loIdx_flatIdx (i j : Fin 384) : loIdx (flatIdx i j) = j :=
  congrArg Prod.snd (flatEquiv.left_inv (i, j))

/-- Summing over tiles and positions is summing over the feature index. -/
theorem sum_tile (f : Fin 384 → ℝ) :
    ∑ ki : Fin 24, ∑ ii : Fin 16, f (tileIdx ki ii) = ∑ i : Fin 384, f i := by
  rw [← Fintype.sum_prod_type' (fun ki ii => f (tileIdx ki ii))]
  exact Fintype.sum_equiv tileEquiv _ _ (fun _ => rfl)

/-- Summing over pairs (i, j) is summing over the flattened index. -/
theorem sum_flat (g : Fin 147456 → ℝ) :
    ∑ i : Fin 384, ∑ j : Fin 384, g (flatIdx i j) = ∑ k : Fin 147456, g k := by
  rw [← Fintype.sum_prod_type' (fun i j => g (flatIdx i j))]
  exact Fintype.sum_equiv flatEquiv _ _ (fun _ => rfl)

/-- The real identity: distribute, re-associate, re-index. -/
theorem wide_bridge_real (x y : Fin 384 → ℝ) (w : Fin 147456 → ℝ) :
    ∑ ki : Fin 24, ∑ ii : Fin 16,
        x (tileIdx ki ii) * ∑ j : Fin 384, y j * w (flatIdx (tileIdx ki ii) j)
      = ∑ k : Fin 147456, (x (hiIdx k) * y (loIdx k)) * w k := by
  rw [sum_tile (fun i => x i * ∑ j : Fin 384, y j * w (flatIdx i j)),
    ← sum_flat (fun k => (x (hiIdx k) * y (loIdx k)) * w k)]
  refine Finset.sum_congr rfl (fun i _ => ?_)
  rw [Finset.mul_sum]
  refine Finset.sum_congr rfl (fun j _ => ?_)
  rw [hiIdx_flatIdx, loIdx_flatIdx, mul_assoc]

/-- With real entries, summing hs[b,i] * (sum over j of ht[b,j] * W[n,384 i + j]) over the 24 x 16
    features i is the single contraction of the flattened outer product with W[n,.]: distributing the
    factor hs[b,i] over the inner sum, re-associating, and re-indexing (ki, ii, j) as k = 384 (16 ki + ii) + j. -/
theorem wide_bridge (hs ht : A2 1024 384) (W : A2 768 147456) (W3 : A3 768 384 384) (bias : Fin 768 → EReal)
    (hW3 : ∀ (n : Fin 768) (i j : Fin 384), W3 (ix3 n i j) = W (ix2 n (flatIdx i j)))
    (hhs : AllReal hs) (hht : AllReal ht) (hW : AllReal W) (b : Fin 1024) (n : Fin 768) :
    wideTiledAt hs ht W3 bias b n = wideFlatAt hs ht W bias b n := by
  choose hsr hhs using hhs
  choose htr hht using hht
  choose Wr hW using hW
  unfold wideTiledAt wideFlatAt
  refine congrArg (· + bias n) ?_
  simp only [hW3, hhs, hht, hW, ← EReal.coe_mul, ← coe_sum_real]
  exact congrArg _ (wide_bridge_real (fun i => hsr (ix2 b i)) (fun j => htr (ix2 b j))
    (fun k => Wr (ix2 n k)))

end Cert.DeepWide

end
-- ==== Proof.RefRead.lean ====
/-
  The reference's two halves read at an index.

  Deep half: the contraction over k < 768 of the joined features at (p, k) with the transposed weight at (k, q),
  plus the bias at q (the bias is broadcast along the rows, so only its coordinate q is read).

  Wide half: the outer product hs[b,i] * ht[b,j] is laid out over (b, i, j) and flattened row-major to (b, k) with
  k = 384 i + j, so the entry at (b, k) is hs[b, k / 384] * ht[b, k % 384]; it is contracted over k < 147456 with the
  transposed weight, whose entry at (k, n) is W[n, k]; the bias at n is added.
-/
import proofs.«148149_j79920751444429_1_alg».proof.Proof.Gen.ReferenceIdeal.Read
import proofs.«148149_j79920751444429_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.ReferenceIdeal.RefValue

open Idealize.ShloMosaic Idealize.ShloMosaic.ValueIdx Cert.ReferenceIdeal Cert.ReferenceIdeal.Read Cert.DeepWide

/-! ## Deep half -/

/-- The left operand of the deep contraction is read at (p, k). -/
theorem lidx_v2_ix2 (p : Fin 1024) (q k : Fin 768) : lidx_main_v2 (ix2 p q) k = ix2 p k :=
  funext fun a => match a with | ⟨0, _⟩ => rfl | ⟨1, _⟩ => rfl

/-- The right operand of the deep contraction is read at (k, q). -/
theorem ridx_v2_ix2 (p : Fin 1024) (q k : Fin 768) : ridx_main_v2 (ix2 p q) k = ix2 k q :=
  funext fun a => match a with | ⟨0, _⟩ => rfl | ⟨1, _⟩ => rfl

/-- The twice-broadcast deep bias at (p, q) is the bias at q. -/
theorem bias_idx_deep (p : Fin 1024) (q : Fin 768) : idx_main_v3 (idx_main_v4 (ix2 p q)) = ix1 q :=
  funext fun a => match a with | ⟨0, _⟩ => rfl

/-- The reference's deep half at row p, column q. -/
theorem ref_deep (x0 x1 : Vec Ideal S1024x384 .f32) (x2 : Vec Ideal S768x768 .f32) (x3 : Vec Ideal S768 .f32)
    (p : Fin 1024) (q : Fin 768) :
    val_main_v5 (F := Ideal) x0 x1 x2 x3 (ix2 p q)
      = deepAt (val_main_v0 (F := Ideal) x0 x1) (val_main_v1 (F := Ideal) x2) (fun q' => x3 (ix1 q')) p q := by
  rw [val_main_v5_apply, val_main_v2_apply, val_main_v4_apply, val_main_v3_apply, bias_idx_deep]
  simp only [lidx_v2_ix2, ridx_v2_ix2, Ideal.addf_def]
  rfl

/-! ## Wide half -/

/-- The left operand of the wide contraction is read at (b, k). -/
theorem lidx_v13_ix2 (b : Fin 1024) (n : Fin 768) (k : Fin 147456) : lidx_main_v13 (ix2 b n) k = ix2 b k :=
  funext fun a => match a with | ⟨0, _⟩ => rfl | ⟨1, _⟩ => rfl

/-- The right operand of the wide contraction is read at (k, n). -/
theorem ridx_v13_ix2 (b : Fin 1024) (n : Fin 768) (k : Fin 147456) : ridx_main_v13 (ix2 b n) k = ix2 k n :=
  funext fun a => match a with | ⟨0, _⟩ => rfl | ⟨1, _⟩ => rfl

/-- The transposed weight at (k, n) is the weight at (n, k). -/
theorem idx_v12_ix2 (k : Fin 147456) (n : Fin 768) : idx_main_v12 (ix2 k n) = ix2 n k :=
  funext fun a => match a with | ⟨0, _⟩ => rfl | ⟨1, _⟩ => rfl

/-- Row-major unflattening: the entry (b, k) of the flattened array is the entry (b, k / 384, k % 384) of the
    rank-3 one, since b * 147456 + k = (b * 384 + k / 384) * 384 + k % 384 with k < 384 * 384. -/
theorem idx_v11_ix2 (b : Fin 1024) (k : Fin 147456) : idx_main_v11 (ix2 b k) = ix3 b (hiIdx k) (loIdx k) :=
  funext fun a => match a with
    | ⟨0, _⟩ => Fin.ext (by
        show (b.val * 147456 + k.val) / 147456 = b.val
        have hk : k.val < 147456 := k.isLt
        omega)
    | ⟨1, _⟩ => Fin.ext (by
        show (b.val * 147456 + k.val) / 384 % 384 = k.val / 384
        have hk : k.val < 147456 := k.isLt
        omega)
    | ⟨2, _⟩ => Fin.ext (by
        show (b.val * 147456 + k.val) % 384 = k.val % 384
        omega)

/-- The first factor of the outer product at (b, i, j) is hs at (b, i). -/
theorem hs_idx_ix3 (b : Fin 1024) (i j : Fin 384) : idx_main_v6 (idx_main_v8 (ix3 b i j)) = ix2 b i :=
  funext fun a => match a with | ⟨0, _⟩ => rfl | ⟨1, _⟩ => rfl

/-- The second factor of the outer product at (b, i, j) is ht at (b, j). -/
theorem ht_idx_ix3 (b : Fin 1024) (i j : Fin 384) : idx_main_v7 (idx_main_v9 (ix3 b i j)) = ix2 b j :=
  funext fun a => match a with | ⟨0, _⟩ => rfl | ⟨1, _⟩ => rfl

/-- The twice-broadcast wide bias at (b, n) is the bias at n. -/
theorem bias_idx_wide (b : Fin 1024) (n : Fin 768) : idx_main_v14 (idx_main_v15 (ix2 b n)) = ix1 n :=
  funext fun a => match a with | ⟨0, _⟩ => rfl

/-- One term of the reference's wide contraction: the flattened outer product at k times the weight at (n, k). -/
theorem wide_term (x0 x1 : Vec Ideal S1024x384 .f32) (x4 : Vec Ideal S768x147456 .f32)
    (b : Fin 1024) (n : Fin 768) (k : Fin 147456) :
    val_main_v11 (F := Ideal) x0 x1 (lidx_main_v13 (ix2 b n) k) * val_main_v12 (F := Ideal) x4 (ridx_main_v13 (ix2 b n) k)
      = (x0 (ix2 b (hiIdx k)) * x1 (ix2 b (loIdx k))) * x4 (ix2 n k) := by
  rw [lidx_v13_ix2, ridx_v13_ix2, val_main_v12_apply, idx_v12_ix2, val_main_v11_apply, idx_v11_ix2,
    val_main_v10_apply, val_main_v8_apply, val_main_v6_apply, hs_idx_ix3, val_main_v9_apply, val_main_v7_apply,
    ht_idx_ix3, Ideal.mulf_def]

/-- The reference's wide half at row b, column n. -/
theorem ref_wide (x0 x1 : Vec Ideal S1024x384 .f32) (x4 : Vec Ideal S768x147456 .f32) (x5 : Vec Ideal S768 .f32)
    (b : Fin 1024) (n : Fin 768) :
    val_main_v16 (F := Ideal) x0 x1 x4 x5 (ix2 b n) = wideFlatAt x0 x1 x4 (fun q' => x5 (ix1 q')) b n := by
  rw [val_main_v16_apply, val_main_v13_apply, val_main_v15_apply, val_main_v14_apply, bias_idx_wide, Ideal.addf_def]
  unfold wideFlatAt
  refine congrArg (· + x5 (ix1 n)) ?_
  exact Finset.sum_congr rfl fun k _ => wide_term x0 x1 x4 b n k

end Cert.ReferenceIdeal.RefValue

end
-- ==== Proof.Finite.lean ====
/-
  Under the precondition every entry of the two feature arrays and of the wide weight is a real number.
-/
import proofs.«148149_j79920751444429_1_alg».proof.Defs
import proofs.«148149_j79920751444429_1_alg».proof.Proof.Gen.Pre_finite_inputs
import proofs.«148149_j79920751444429_1_alg».proof.Proof.Spec
import Idealize.ShloMosaic.Lib.ReduceAll
import Idealize.ShloMosaic.Lib.ValueIdx

noncomputable section

namespace Cert.DeepWide

open Idealize.ShloMosaic Idealize.ShloMosaic.ValueIdx Idealize.SL.Sem

/-- The shape of rank 0 has exactly one index. -/
instance subsingleton_scalarIdx : Subsingleton Cert.Pre_finite_inputs.S_.Idx :=
  ⟨fun a b => funext fun d => d.elim0⟩

/-- An extended real whose absolute value max x (-x) lies below +∞ is a real: it is neither -∞ nor +∞. -/
theorem exists_real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 denotes +∞. -/
theorem ofBits_inf : Ideal.ofBits .f32 0x7F800000#32 = ⊤ := by simp [Ideal.ofBits, Ideal.ieee]

/-- One entry: if the comparison |x| < +∞ answers 1, then x is a real. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact exists_real_of_abs_lt_top x hlt
  · simp [hlt] at h'

/-- An array x of any shape for which the conjunction over all entries of |x| < +∞ (the comparison against
    the broadcast scalar +∞, reduced by "and" from 1 over every axis) is 1 has only real entries. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    AllReal x := by
  intro i
  exact exists_real_of_cmp (x i) (Host.reduce_andi_all _ _ hr hu ix0 e i)

/-- The precondition makes the feature arrays and the wide weight real-valued. -/
theorem allReal_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0) : Vec Ideal Cert.KernelIdeal.S1024x384 .f32)
    ∧ AllReal (m ((c.tc : Thread Cert.KernelIdeal.nD Cert.KernelIdeal.τ).loc Cert.KernelIdeal.main_arg1) : Vec Ideal Cert.KernelIdeal.S1024x384 .f32)
    ∧ AllReal (m ((c.tc : Thread Cert.KernelIdeal.nD Cert.KernelIdeal.τ).loc Cert.KernelIdeal.main_arg4) : Vec Ideal Cert.KernelIdeal.S768x147456 .f32) := by
  -- The precondition at the one index of its rank-0 result: a conjunction of six "all entries finite" words.
  have h0 := congrFun (h c) ix0
  dsimp only [Cert.Pre_finite_inputs.fn, Cert.Pre_finite_inputs.fn_part1] at h0
  -- It associates to the left: ((((a0 ∧ a1) ∧ a2) ∧ a3) ∧ a4) ∧ a5; peel the conjuncts off from the right.
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨allReal_of_all _ _ _ _ h0', allReal_of_all _ _ _ _ h1, allReal_of_all _ _ _ _ h4⟩

end Cert.DeepWide

end
-- ==== Proof.Bridge.lean ====
/-
  The two programs compute one array.

  Both results are the deep half and the wide half side by side. The deep halves are the same sum
  (a matrix product of the joined features with the transposed weight, plus the bias row) read from the
  kernel's output array and from the reference's stages. The wide halves differ in arrangement: the
  kernel accumulates, tile by tile, hs[b,i] * (sum over j of ht[b,j] * W[n,384 i + j]); the reference
  contracts the flattened outer product hs[b,i] * ht[b,j] with W[n,384 i + j]. Under the precondition all
  entries are real numbers, where the factor hs[b,i] distributes over the inner sum, so the two agree.
-/
import proofs.«148149_j79920751444429_1_alg».proof.Defs
import proofs.«148149_j79920751444429_1_alg».proof.Proof.Gen.Kernel.Frame
import proofs.«148149_j79920751444429_1_alg».proof.Proof.Gen.ReferenceIdeal.Run
import proofs.«148149_j79920751444429_1_alg».proof.Proof.Gen.ReferenceIdeal.Read
import proofs.«148149_j79920751444429_1_alg».proof.Proof.Gen.Pre_finite_inputs
import proofs.«148149_j79920751444429_1_alg».proof.Proof.Spec
import proofs.«148149_j79920751444429_1_alg».proof.Proof.RunValue
import proofs.«148149_j79920751444429_1_alg».proof.Proof.Boundaries
import proofs.«148149_j79920751444429_1_alg».proof.Proof.Region0Value
import proofs.«148149_j79920751444429_1_alg».proof.Proof.Region1Value
import proofs.«148149_j79920751444429_1_alg».proof.Proof.Algebra
import proofs.«148149_j79920751444429_1_alg».proof.Proof.RefRead
import proofs.«148149_j79920751444429_1_alg».proof.Proof.Finite
import Idealize.ShloMosaic.Lib.Pipeline.Value
import Idealize.ShloMosaic.Lib.ValueLayout

set_option maxRecDepth 16384

noncomputable section

namespace Cert.Proof.Bridge

open Idealize.ShloMosaic Idealize.ShloMosaic.TcCoe Idealize.ShloMosaic.ValueIdx Idealize.SL.Sem
open Cert.DeepWide

/-! ## Two reshapes read at an index -/

/-- A bias vector cast to one row reads, in column q of that row, its entry q. -/
theorem biasRow (x : A1 768) (h : (⟨1, ![768]⟩ : Shape).ShapeCasts ⟨2, ![1, 768]⟩) :
    (fun q : Fin 768 => shapeCast (⟨2, ![1, 768]⟩ : Shape) x h (ix2 0 q)) = fun q => x (ix1 q) :=
  funext fun q => shapeCast_a_1a_apply x h 0 q

/-- The wide weight cast to rank 3 reads, at (n, i, j), its entry (n, 384 i + j). -/
theorem weightCube (x : A2 768 147456) (h : (⟨2, ![768, 147456]⟩ : Shape).ShapeCasts ⟨3, ![768, 384, 384]⟩)
    (n : Fin 768) (i j : Fin 384) :
    shapeCast (⟨3, ![768, 384, 384]⟩ : Shape) x h (ix3 n i j) = x (ix2 n (flatIdx i j)) :=
  shapeCast_apply x h _ _ (by
    rw [Shape.rowMajor_val_two, Shape.rowMajor_val_three]
    show n.val * 147456 + (i.val * 384 + j.val) = (n.val * 384 + i.val) * 384 + j.val
    omega)

/-! ## The common result -/

/-- The result as a function of the six argument arrays: the deep half beside the wide half (the wide half
    in the tiled arrangement over the weight as a rank-3 array). -/
def result (x0 x1 : A2 1024 384) (x2 : A2 768 768) (x3 : A1 768) (x4 : A2 768 147456) (x5 : A1 768) : A2 1024 1536 :=
  concatenate Cert.KernelIdeal.S1024x1536 1
    [⟨Cert.KernelIdeal.S1024x768,
        deepArr
          (concatenate Cert.KernelIdeal.S1024x768 1 [⟨Cert.KernelIdeal.S1024x384, x0⟩, ⟨Cert.KernelIdeal.S1024x384, x1⟩]
            Cert.KernelIdeal.Gen.concatenates_S1024x384_S1024x384_S1024x768_d1)
          (transpose Cert.KernelIdeal.S768x768 [1, 0] x2 Cert.KernelIdeal.Gen.transposes_S768x768_S768x768_1_0)
          (shapeCast Cert.KernelIdeal.S1x768 x3 Cert.KernelIdeal.Gen.shapeCasts_S768_S1x768)⟩,
     ⟨Cert.KernelIdeal.S1024x768,
        wideArr x0 x1 (shapeCast Cert.KernelIdeal.S768x384x384 x4 Cert.KernelIdeal.Gen.shapeCasts_S768x147456_S768x384x384)
          (shapeCast Cert.KernelIdeal.S1x768 x5 Cert.KernelIdeal.Gen.shapeCasts_S768_S1x768)⟩]
    Cert.KernelIdeal.Gen.concatenates_S1024x768_S1024x768_S1024x1536_d1

/-! ## The kernel's result array -/

section Kernel
open Cert.KernelIdeal Cert.KernelIdeal.Gen

/-- The kernel's result array at the end of the run is `result` of its argument arrays: the last host
    operation joins the two kernels' output arrays, each its half of the result as a function of what the
    kernel was entered with, which the host operations before it made from the arguments. -/
theorem kernel_value (m : (ℓ : Loc nD τ sig) → Buf (Elt Ideal) ℓ) (ρ : Dev nD → PrngReg) (c : Dev nD) :
    W5 m ρ c (Proc.devRef .tc main_v7)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [Cert.KernelIdeal.GenRun.W5_main_v7, Cert.KernelIdeal.Deep.region0_value (V1 m ρ) c,
    Cert.KernelIdeal.Wide.region1_value (V3 m ρ) c,
    Cert.KernelIdeal.GenRun.V1_main_v0, Cert.KernelIdeal.GenRun.V1_main_v1, Cert.KernelIdeal.GenRun.V1_main_v2,
    Cert.KernelIdeal.GenRun.V3_main_arg0, Cert.KernelIdeal.GenRun.V3_main_arg1,
    Cert.KernelIdeal.GenRun.V3_main_v4, Cert.KernelIdeal.GenRun.V3_main_v5]
  rfl

end Kernel

/-! ## The reference's result array -/

section Reference
open Cert.ReferenceIdeal Cert.ReferenceIdeal.Read

/-- The reference's deep stage is the deep half. -/
theorem ref_deep_arr (x0 x1 : A2 1024 384) (x2 : A2 768 768) (x3 : A1 768) :
    val_main_v5 (F := Ideal) x0 x1 x2 x3
      = deepArr
          (concatenate Cert.KernelIdeal.S1024x768 1 [⟨Cert.KernelIdeal.S1024x384, x0⟩, ⟨Cert.KernelIdeal.S1024x384, x1⟩]
            Cert.KernelIdeal.Gen.concatenates_S1024x384_S1024x384_S1024x768_d1)
          (transpose Cert.KernelIdeal.S768x768 [1, 0] x2 Cert.KernelIdeal.Gen.transposes_S768x768_S768x768_1_0)
          (shapeCast Cert.KernelIdeal.S1x768 x3 Cert.KernelIdeal.Gen.shapeCasts_S768_S1x768) := by
  funext i
  obtain ⟨p, q, rfl⟩ : ∃ (p : Fin 1024) (q : Fin 768), i = ix2 p q := ⟨i 0, i 1, eq_ix2 i⟩
  rw [Cert.ReferenceIdeal.RefValue.ref_deep, deepArr_ix2, biasRow]
  rfl

/-- The reference's wide stage is the wide half in the tiled arrangement, when the features and the weight
    are real-valued. -/
theorem ref_wide_arr (x0 x1 : A2 1024 384) (x4 : A2 768 147456) (x5 : A1 768)
    (h0 : AllReal x0) (h1 : AllReal x1) (h4 : AllReal x4) :
    val_main_v16 (F := Ideal) x0 x1 x4 x5
      = wideArr x0 x1 (shapeCast Cert.KernelIdeal.S768x384x384 x4 Cert.KernelIdeal.Gen.shapeCasts_S768x147456_S768x384x384)
          (shapeCast Cert.KernelIdeal.S1x768 x5 Cert.KernelIdeal.Gen.shapeCasts_S768_S1x768) := by
  funext i
  obtain ⟨b, n, rfl⟩ : ∃ (b : Fin 1024) (n : Fin 768), i = ix2 b n := ⟨i 0, i 1, eq_ix2 i⟩
  rw [Cert.ReferenceIdeal.RefValue.ref_wide, wideArr_ix2, biasRow]
  exact (wide_bridge x0 x1 x4 _ _ (weightCube x4 _) h0 h1 h4 _ _).symm

/-- The reference's last stage is `result` of the argument arrays. -/
theorem ref_value (x0 x1 : A2 1024 384) (x2 : A2 768 768) (x3 : A1 768) (x4 : A2 768 147456) (x5 : A1 768)
    (h0 : AllReal x0) (h1 : AllReal x1) (h4 : AllReal x4) :
    val_main_v17 (F := Ideal) x0 x1 x2 x3 x4 x5 = result x0 x1 x2 x3 x4 x5 := by
  unfold val_main_v17 result
  rw [ref_deep_arr, ref_wide_arr x0 x1 x4 x5 h0 h1 h4]

end Reference

end Cert.Proof.Bridge

end
-- ==== Proof.lean ====
/-
  The certificate of a kernel with a deep (linear) path and a wide (bilinear) path against its reference.

  The kernel program runs two pallas_calls. The first computes, in two row blocks, the joined features
  [hspatial | htext] times the transposed weight W_L, plus b_L. The second walks a 2 x 24 grid: for each
  half of the batch it zeroes its output block at the first of 24 tiles, at every tile adds
      sum over the tile's 16 features i of hspatial[b,i] * (sum over j of htext[b,j] * W_L2[n, 384 i + j]),
  and at the last tile adds b_L2. The reference forms the outer product hspatial[b,i] * htext[b,j],
  flattens it row-major and contracts it with W_L2[n, .] in one product, plus b_L2. The result of both is the
  two halves side by side.

  The frames of the two kernel programs are the generated ones; the reference's is its generated run.
  For the value claim the kernel program is run once more with its result array named: it ends at the
  last boundary's contents, which the host operations and the two kernels' output arrays determine
  (Boundaries, Region0Value, Region1Value over WideBody / WidePieces / WidePayload). The reference's
  stages are read at an index (RefRead). The two wide halves agree because under the precondition every
  entry is a real number (Finite), where the factor hspatial[b,i] distributes over the inner sum and the
  triple sum over (tile, feature in tile, j) is the single sum over k = 384 i + j (Algebra). Bridge
  assembles the common result.
-/
import proofs.«148149_j79920751444429_1_alg».proof.Defs
import proofs.«148149_j79920751444429_1_alg».proof.Proof.Gen.Kernel
import proofs.«148149_j79920751444429_1_alg».proof.Proof.Gen.Kernel.Skeleton
import proofs.«148149_j79920751444429_1_alg».proof.Proof.Gen.Kernel.Launch
import proofs.«148149_j79920751444429_1_alg».proof.Proof.Gen.Kernel.Points
import proofs.«148149_j79920751444429_1_alg».proof.Proof.Gen.Kernel.Frame
import proofs.«148149_j79920751444429_1_alg».proof.Proof.Gen.KernelIdeal
import proofs.«148149_j79920751444429_1_alg».proof.Proof.Gen.KernelIdeal.Skeleton
import proofs.«148149_j79920751444429_1_alg».proof.Proof.Gen.KernelIdeal.Launch
import proofs.«148149_j79920751444429_1_alg».proof.Proof.Gen.KernelIdeal.Points
import proofs.«148149_j79920751444429_1_alg».proof.Proof.Gen.KernelIdeal.Frame
import proofs.«148149_j79920751444429_1_alg».proof.Proof.Gen.ReferenceIdeal
import proofs.«148149_j79920751444429_1_alg».proof.Proof.Gen.Pre_finite_inputs
import proofs.«148149_j79920751444429_1_alg».proof.Proof.Gen.ReferenceIdeal.Run
import proofs.«148149_j79920751444429_1_alg».proof.Proof.Gen.ReferenceIdeal.Read
import proofs.«148149_j79920751444429_1_alg».proof.Proof.Bridge
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `Bridge.result` of
    the arguments: the kernel program by its run with the result named, the reference by its generated run
    read stage by stage; the precondition supplies that the features and the wide weight are real-valued. -/
theorem algebraic : Cert.algebraic_KernelIdeal_ReferenceIdeal := by
  intro m ρ m' ρ' hpre hagree
  refine ⟨fun c => Bridge.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Bridge.kernel_value m ρ c), (h c).2⟩)
      (Cert.KernelIdeal.GenRun.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h4⟩ := Cert.DeepWide.allReal_of_pre m hpre c
    rw [(hagree c).1, (hagree c).2.1, (hagree c).2.2.1, (hagree c).2.2.2.1, (hagree c).2.2.2.2.1, (hagree c).2.2.2.2.2]
    exact (Cert.ReferenceIdeal.Read.val_main_v17_eq _ _ _ _ _ _).trans (Bridge.ref_value _ _ _ _ _ _ h0 h1 h4)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
